-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4096 : Shape := ⟨3, ![8, 1024, 4096]⟩
abbrev S4096x4096 : Shape := ⟨2, ![4096, 4096]⟩
abbrev S4096x64 : Shape := ⟨2, ![4096, 64]⟩
abbrev S64 : Shape := ⟨1, ![64]⟩
abbrev S64x4096 : Shape := ⟨2, ![64, 4096]⟩
abbrev S4096 : Shape := ⟨1, ![4096]⟩
abbrev S_ : Shape := ⟨0, ![]⟩

class Facts : Prop where
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S64x4096 .f32) (main_arg5 : FVec F S4096 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x4096 .f32 := Host.absf main_arg4
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8x1024x4096 .f32) (main_arg1 : FVec F S4096x4096 .f32) (main_arg2 : FVec F S4096x64 .f32) (main_arg3 : FVec F S64 .f32) (main_arg4 : FVec F S64x4096 .f32) (main_arg5 : FVec F S4096 .f32) : IVec S_ 1 :=
  let main_v0 : FVec F S8x1024x4096 .f32 := Host.absf main_arg0
  let main_cst : FVec F S_ .f32 := constant S_ .f32 0x7F800000#32
  let main_v1 : FVec F S8x1024x4096 .f32 := broadcastInDim S8x1024x4096 ![] bcast_S_S8x1024x4096 main_cst
  let main_v2 : IVec S8x1024x4096 1 := cmpf .olt main_v0 main_v1
  let main_c : IVec S_ 1 := constantI S_ 1 1#1
  let main_v3 : IVec S_ 1 := (fun x v => Host.reduce IntOp.andi x v reducesTo_S8x1024x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8x1024x4096 : Shape := ⟨3, ![8, 1024, 4096]⟩
abbrev S4096x4096 : Shape := ⟨2, ![4096, 4096]⟩
abbrev S4096x64 : Shape := ⟨2, ![4096, 64]⟩
abbrev S64 : Shape := ⟨1, ![64]⟩
abbrev S64x4096 : Shape := ⟨2, ![64, 4096]⟩
abbrev S4096 : Shape := ⟨1, ![4096]⟩
abbrev S1x64 : Shape := ⟨2, ![1, 64]⟩
abbrev S1024x1024 : Shape := ⟨2, ![1024, 1024]⟩
abbrev S1024x64 : Shape := ⟨2, ![1024, 64]⟩
abbrev S64x1024 : Shape := ⟨2, ![64, 1024]⟩
abbrev S8192x4096 : Shape := ⟨2, ![8192, 4096]⟩
abbrev S1x4096 : Shape := ⟨2, ![1, 4096]⟩
abbrev S1x1024 : Shape := ⟨2, ![1, 1024]⟩

abbrev nBuf : Space → Nat
  | .hbm => 12
  | .vmem => 18
  | .smem => 0
  | _ => 0

abbrev bufTy : (tb : Table) → Fin (tcTables nBuf tb) → BufTy
  | .hbm, ⟨0, _⟩ => ⟨S8x1024x4096, .f32⟩
  | .hbm, ⟨1, _⟩ => ⟨S4096x4096, .f32⟩
  | .hbm, ⟨2, _⟩ => ⟨S4096x64, .f32⟩
  | .hbm, ⟨3, _⟩ => ⟨S64, .f32⟩
  | .hbm, ⟨4, _⟩ => ⟨S64x4096, .f32⟩
  | .hbm, ⟨5, _⟩ => ⟨S4096, .f32⟩
  | .hbm, ⟨6, _⟩ => ⟨S1x64, .f32⟩
  | .hbm, ⟨7, _⟩ => ⟨S4096x4096, .bf16⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8x1024x4096, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S1x64, .f32⟩
  | .local _ .vmem, ⟨5, _⟩ => ⟨S64x1024, .f32⟩
  | .local _ .vmem, ⟨6, _⟩ => ⟨S64x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S8x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x1024_S64x1024_0_0 : ∀ a, (![0, 0] : Fin 2 → Nat) a + S64x1024.size a ≤ S64x1024.size a
  h_S64x1024 : 0 < S64x1024.numel
  broadcasts_S1x64_S1024x64 : S1x64.Broadcasts S1024x64
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S8x1024x4096_S8192x4096 : S8x1024x4096.ShapeCasts S8192x4096
  shapeCasts_S4096_S1x4096 : S4096.ShapeCasts S1x4096
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S8x1024x4096 : S8192x4096.ShapeCasts S8x1024x4096
  dot_S1024x64_S64x1024_S1024x1024_1_0_0_1_n_n_wf : DotDims.WF S1024x64 S64x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x4096.size a
  hwx0_3 : ∀ i : grid0.Coords, EltTy.bits .f32 = 32 ∨ (Rect.block (s := S64x4096) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .bf16 = 32 ∨ (Rect.block (s := S4096x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x1024x4096 : Shape := ⟨3, ![8, 1024, 4096]⟩
abbrev S4096x4096 : Shape := ⟨2, ![4096, 4096]⟩
abbrev S4096x64 : Shape := ⟨2, ![4096, 64]⟩
abbrev S64 : Shape := ⟨1, ![64]⟩
abbrev S64x4096 : Shape := ⟨2, ![64, 4096]⟩
abbrev S4096 : Shape := ⟨1, ![4096]⟩
abbrev S8x1024x64 : Shape := ⟨3, ![8, 1024, 64]⟩
abbrev S1x1x64 : Shape := ⟨3, ![1, 1, 64]⟩
abbrev S1x1x4096 : Shape := ⟨3, ![1, 1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8x1024x4096, .f32⟩
  | .hbm, ⟨1, _⟩ => ⟨S4096x4096, .f32⟩
  | .hbm, ⟨2, _⟩ => ⟨S4096x64, .f32⟩
  | .hbm, ⟨3, _⟩ => ⟨S64, .f32⟩
  | .hbm, ⟨4, _⟩ => ⟨S64x4096, .f32⟩
  | .hbm, ⟨5, _⟩ => ⟨S4096, .f32⟩
  | .hbm, ⟨6, _⟩ => ⟨S8x1024x4096, .f32⟩
  | .hbm, ⟨7, _⟩ => ⟨S8x1024x64, .f32⟩
  | .hbm, ⟨8, _⟩ => ⟨S1x1x64, .f32⟩
  | .hbm, ⟨9, _⟩ => ⟨S8x1024x64, .f32⟩
  | .hbm, ⟨10, _⟩ => ⟨S8x1024x64, .f32⟩
  | .hbm, ⟨11, _⟩ => ⟨S8x1024x4096, .f32⟩
  | .hbm, ⟨12, _⟩ => ⟨S8x1024x4096, .f32⟩
  | .hbm, ⟨13, _⟩ => ⟨S1x1x4096, .f32⟩
  | .hbm, ⟨14, _⟩ => ⟨S8x1024x4096, .f32⟩
  | .hbm, ⟨15, _⟩ => ⟨S8x1024x4096, .f32⟩
  | _, _ => ⟨S8x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x1024x64_0_1_2 : S1x1x64.BroadcastsInDim S8x1024x64 (![0, 1, 2] : Fin 3 → Fin S8x1024x64.rank)
  bcast_S4096_S1x1x4096_2 : S4096.BroadcastsInDim S1x1x4096 (![2] : Fin 1 → Fin S1x1x4096.rank)
  bcast_S1x1x4096_S8x1024x4096_0_1_2 : S1x1x4096.BroadcastsInDim S8x1024x4096 (![0, 1, 2] : Fin 3 → Fin S8x1024x4096.rank)
  dot_S8x1024x4096_S4096x4096_S8x1024x4096_2_1_01_0_n_n_wf : DotDims.WF S8x1024x4096 S4096x4096 S8x1024x4096 [2] [1] [0, 1] [0] [] []
  dot_S8x1024x4096_S64x4096_S8x1024x64_2_1_01_0_n_n_wf : DotDims.WF S8x1024x4096 S64x4096 S8x1024x64 [2] [1] [0, 1] [0] [] []
  dot_S8x1024x64_S4096x64_S8x1024x4096_2_1_01_0_n_n_wf : DotDims.WF S8x1024x64 S4096x64 S8x1024x4096 [2] [1] [0, 1] [0] [] []

variable [Facts₀]

def dot_S8x1024x4096_S4096x4096_S8x1024x4096_2_1_01_0_n_n : DotDims S8x1024x4096 S4096x4096 S8x1024x4096 where
  lhsContracting := [2]
  rhsContracting := [1]
  lhsNonContracting := [0, 1]
  rhsNonContracting := [0]
  lhsBatch := []
  rhsBatch := []
  wf := dot_S8x1024x4096_S4096x4096_S8x1024x4096_2_1_01_0_n_n_wf
def dot_S8x1024x4096_S64x4096_S8x1024x64_2_1_01_0_n_n : DotDims S8x1024x4096 S64x4096 S8x1024x64 where
  lhsContracting := [2]
  rhsContracting := [1]
  lhsNonContracting := [0, 1]
  rhsNonContracting := [0]
  lhsBatch := []
  rhsBatch := []
  wf := dot_S8x1024x4096_S64x4096_S8x1024x64_2_1_01_0_n_n_wf
def dot_S8x1024x64_S4096x64_S8x1024x4096_2_1_01_0_n_n : DotDims S8x1024x64 S4096x64 S8x1024x4096 where
  lhsContracting := [2]
  rhsContracting := [1]
  lhsNonContracting := [0, 1]
  rhsNonContracting := [0]
  lhsBatch := []
  rhsBatch := []
  wf := dot_S8x1024x64_S4096x64_S8x1024x4096_2_1_01_0_n_n_wf

class Facts : Prop extends Facts₀ where

variable [Facts]
-- ==== Proof.Bits.MergeBody.lean ====
/-
  Region 0 of @main, the weight merge: on a 4 x 4 grid, point (i, j) reads the 1024 x 1024 block (i, j) of the main
  weight, the 1024 x 64 row block i of U, the whole 1 x 64 row S and the 64 x 1024 column block j of V, and stores
  block (i, j) of the merged weight, wm + (u * s) · v. This module states, at any entry contents of the buffers,
  what each window's staging buffer holds after the body at each point, and proves the body's triple there.
-/
import proofs.«138539_j9663676416607_1_alg».proof.Proof.Gen.Kernel.Launch
import proofs.«138539_j9663676416607_1_alg».proof.Proof.Gen.Kernel.Skeleton
import proofs.«138539_j9663676416607_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at grid point `t`, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the four inputs stay at their blocks; the output block is the merged weight's
    block, the body's one stored value of the four input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 1 t) (iblk0 V c 2 t) (iblk0 V c 3 t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay1 (iblk0 V c 1 t) (iblk0 V c 2 t) (iblk0 V c 3 t) (iblk0 V c 0 t) := by dsimp only [dat0]

/-! ## What the body finds in each input window's buffer -/

/-- Window 0 (the main weight's block) holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Window 1 (the row block of U), fetched only where the column coordinate is 0, holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Window 2 (the whole row S), fetched at the first point only, holds its block at every point. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Window 3 (the column block of V) holds its block at every point. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body's triple on whole staging memrefs -/

/-- The whole-block rectangle of the output buffer, through which the body's one store goes. -/
abbrev rOut0 : Rect S1024x1024 := Rect.unit (s := S1024x1024) ![0, 0] S1024x1024.size inb_S1024x1024_S1024x1024_0_0

/-- The printed zero offsets are the zero function. -/
theorem zeros2 : (![0, 0] : Fin 2 → ℕ) = fun _ => 0 := funext fun a => by fin_cases a <;> rfl

/-- The one store covers the output buffer: every index lies in the whole-block rectangle. -/
theorem cover0_4 (p0 : Vec F S1024x1024 .bf16) (y : S1024x1024.Idx) :
    ∃ pc ∈ ([⟨rOut0, p0⟩] : List (View.Piece (Elt F) S1024x1024 .bf16)), y ∈ pc.1.set :=
  ⟨_, List.mem_singleton_self _, View.mem_set_unit_zero zeros2 inb_S1024x1024_S1024x1024_0_0 y⟩

set_option maxHeartbeats 1000000 in
/-- From the four inputs' memrefs at read contents `x0 x1 x2 x3` and the output's at anything, the body runs to the
    continuation with the inputs as they were and the output at the merged block of the inputs. -/
theorem sound_kernel0 (c : Dev nD) (E : Set ℕ) (i : grid0.Coords)
    (arg2 : Memref sig .tc .vmem S1024x1024 .f32) (harg2 : arg2.IsWhole)
    (arg3 : Memref sig .tc .vmem S1024x64 .f32) (harg3 : arg3.IsWhole)
    (arg4 : Memref sig .tc .vmem S1x64 .f32) (harg4 : arg4.IsWhole)
    (arg5 : Memref sig .tc .vmem S64x1024 .f32) (harg5 : arg5.IsWhole)
    (arg6 : Memref sig .tc .vmem S1024x1024 .bf16) (harg6 : arg6.IsWhole)
    (x0 : Vec F S1024x1024 .f32) (x1 : Vec F S1024x64 .f32) (x2 : Vec F S1x64 .f32) (x3 : Vec F S64x1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 x1 x2 x3 x0)) -∗ K ⟨⟩))
      ⊢ wp frame (wpE (defs₀ (F := F)) Variants.none c none) E
          (cc0__merge_kernel i arg2 harg2 arg3 harg3 arg4 harg4 arg5 harg5 arg6 harg6) K := by
  simp only [cc0__merge_kernel_eq_skeleton]; unfold cc0__merge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover0_4 _), View.canon_unit_zero zeros2,
    View.readAt_eq_ld, View.readAt_eq_ld, View.readAt_eq_ld, View.readAt_eq_ld,
    View.ld_unit_zero zeros2, View.ld_unit_zero zeros2, View.ld_unit_zero zeros2, View.ld_unit_zero zeros2]

/-! ## The body obligation, at a generic point -/

/-- What the body is called with at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the invariant and the debt at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the four inputs' buffers hold their blocks, so the kernel's triple applies at those
    blocks; the invariant and the debt are constant in the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.AccBody.lean ====
/-
  Region 1 of @main, the blocked matrix product: on an 8 x 4 x 4 grid, point (i, j, k) reads the 1024 x 1024 block
  (i, k) of x, the block (j, k) of the merged weight and the 1 x 1024 block j of the bias. A scratch accumulator is
  zeroed at k = 0, gains x_blk · w_blkᵀ at every point, and at k = 3 the accumulator plus the bias is stored as
  block (i, j) of the result. This module states what the scratch holds after each point, the proof data, and
  proves the body's triple at each point.
-/
import proofs.«138539_j9663676416607_1_alg».proof.Proof.Gen.Kernel.Launch
import proofs.«138539_j9663676416607_1_alg».proof.Proof.Gen.Kernel.Skeleton
import proofs.«138539_j9663676416607_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at grid point `t`, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator after point `n`: the body's update of what the point before left, or of zero
    where the last grid coordinate is 0 (the points ≡ 0 mod 4). -/
def accAt (c : Dev nD) : (n : ℕ) → n < cfg1.N → Vec F S1024x1024 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 4 = 0 then k1_pay1 (F := F) else accAt c n (Nat.lt_of_succ_lt h))

theorem accAt_reset (c : Dev nD) (t : Fin cfg1.N) (h : t.val % 4 = 0) :
    accAt V c t.val t.isLt = k1_pay2 (iblk1 V c 0 t) (iblk1 V c 1 t) (k1_pay1 (F := F)) := by
  obtain ⟨n, hn⟩ := t
  cases n with
  | zero => rfl
  | succ n =>
    show k1_pay2 (iblk1 V c 0 ⟨n + 1, hn⟩) (iblk1 V c 1 ⟨n + 1, hn⟩)
      (if (n + 1) % 4 = 0 then k1_pay1 (F := F) else accAt V c n (Nat.lt_of_succ_lt hn)) = _
    rw [if_pos h]

theorem accAt_step (c : Dev nD) (t : Fin cfg1.N) (h : t.val % 4 ≠ 0) :
    accAt V c t.val t.isLt = k1_pay2 (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod 4) h
  | succ n =>
    show k1_pay2 (iblk1 V c 0 ⟨n + 1, hn⟩) (iblk1 V c 1 ⟨n + 1, hn⟩)
      (if (n + 1) % 4 = 0 then k1_pay1 (F := F) else accAt V c n (Nat.lt_of_succ_lt hn)) = _
    rw [if_neg h]
    rfl

/-- The scoped buffers of the core that are neither a staging buffer of this region nor its scratch (region 0's
    nine staging buffers), each whole at some contents. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The scratch memref the body is called with. -/
abbrev scratchM : Memref sig .tc .vmem S1024x1024 .f32 := Memref.whole cc1_scratch0

/-- The region's invariant before position `n`: before the first point the class's (every scoped buffer that is
    no staging buffer at anything, the generator register at some state); afterwards the same with the scratch
    at what the point before left in it. -/
def PhiS (c : Dev nD) : (n : ℕ) → n ≤ cfg1.N → sProp 𝕄
  | 0, _ => Pipeline.ΦA spec1 c
  | n + 1, hn => iprop(otherStaging (F := F) c ∗ owns (c : Thread nD τ) scratchM fullShare (accAt V c n hn) ∗ (∃ r, prngReg c r))

/-- Region 1's proof data: the three inputs stay at their blocks; the output block (stored where the last
    grid coordinate is 3) is the accumulator after the point plus the bias block, broadcast along the rows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt V c t.val t.isLt) (iblk1 V c 2 t) := by dsimp only [dat1]

/-! ## The body's two conditions -/

/-- The first conditional's condition as the body computes it: the last grid coordinate is 0. -/
abbrev condReset (i : grid1.Coords) : Prop :=
  Scalar.cmpi .ne (Scalar.extui (Scalar.cmpi .eq (BitVec.ofNat 32 (i 2).val) 0#32)) 0#32 = 1#1

/-- The second conditional's condition: the last grid coordinate is 3. -/
abbrev condOut (i : grid1.Coords) : Prop := k1_cond2 i = 1#1

/-- The accumulator is zeroed at the points ≡ 0 (mod 4): the last coordinate runs fastest. -/
theorem hcondReset : ∀ t : Fin cfg1.N, condReset (grid1.coords t) ↔ t.val % 4 = 0 :=
  (by decide +kernel : ∀ t : Fin grid1.N, condReset (grid1.coords t) ↔ t.val % 4 = 0)

/-- The result is stored at the points ≡ 3 (mod 4). -/
theorem hcondOut : ∀ t : Fin cfg1.N, condOut (grid1.coords t) ↔ t.val % 4 = 3 :=
  (by decide +kernel : ∀ t : Fin grid1.N, condOut (grid1.coords t) ↔ t.val % 4 = 3)

/-! ## Reading back what a whole-buffer store left -/

/-- The whole-buffer rectangle's offsets are zero. -/
theorem hz : (![0, 0] : Fin 2 → Nat) = fun _ => 0 := funext fun a => by fin_cases a <;> rfl

/-- A list of stores whose last one goes through the whole-buffer rectangle covers every index. -/
theorem cover_whole {S : Shape} {e : EltTy} {off : Fin S.rank → Nat} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons_self, View.mem_set_unit_zero h inb y⟩

section Runs

variable (c : Dev nD) (i : grid1.Coords)
  (arg3 : Memref sig .tc .vmem S1024x1024 .f32) (harg3 : arg3.IsWhole) (arg4 : Memref sig .tc .vmem S1024x1024 .bf16) (harg4 : arg4.IsWhole)
  (arg5 : Memref sig .tc .vmem S1x1024 .f32) (harg5 : arg5.IsWhole) (arg6 : Memref sig .tc .vmem S1024x1024 .f32) (harg6 : arg6.IsWhole)
  (arg7 : Memref sig .tc .vmem S1024x1024 .f32) (harg7 : arg7.IsWhole)

/-- The body where the last coordinate is 0: whatever the accumulator held, it is zeroed and then gains the
    block product; the bias and the result's buffer are not touched. -/
theorem run_reset (hc0 : condReset i) (hc1 : ¬condOut i)
    (x : Vec F S1024x1024 .f32) (w : Vec F S1024x1024 .bf16) (b : Vec F S1x1024 .f32) (d : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare d ∗ (∃ s, owns (c : Thread nD τ) arg7 fullShare s)
        ∗ (iprop(owns (c : Thread nD τ) arg3 fullShare x ∗ owns (c : Thread nD τ) arg4 fullShare w ∗ owns (c : Thread nD τ) arg5 fullShare b
            ∗ owns (c : Thread nD τ) arg6 fullShare d ∗ owns (c : Thread nD τ) arg7 fullShare (k1_pay2 x w (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%s, %f7, -, H7⟩, Hk⟩
  subst hf3 hf4 hf5 hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  rw [View.read_writes_eq_canon _ _ _ (cover_whole hz _ _ _), View.canon_cons_unit_zero (S := S1024x1024) hz,
    View.readCov_unit_zero (S := S1024x1024) _ hz]
  simp only [View.readAt_eq_ld, View.ld_unit_zero (S := S1024x1024) hz]

/-- The body where the last coordinate is 1 or 2: the accumulator gains the block product. -/
theorem run_mid (hc0 : ¬condReset i) (hc1 : ¬condOut i)
    (x : Vec F S1024x1024 .f32) (w : Vec F S1024x1024 .bf16) (b : Vec F S1x1024 .f32) (d : Vec F S1024x1024 .f32) (s : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare d ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare d ∗ owns (c : Thread nD τ) arg7 fullShare (k1_pay2 x w s)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover_whole hz _ _ _), View.canon_unit_zero hz]
  simp only [View.readAt_eq_ld, View.ld_unit_zero (S := S1024x1024) hz]

/-- The body where the last coordinate is 3: the accumulator gains the block product, and the result's buffer
    receives the accumulator plus the bias row. -/
theorem run_last (hc0 : ¬condReset i) (hc1 : condOut i)
    (x : Vec F S1024x1024 .f32) (w : Vec F S1024x1024 .bf16) (b : Vec F S1x1024 .f32) (s : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w s) b) ∗ owns (c : Thread nD τ) arg7 fullShare (k1_pay2 x w s)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d, %f6, -, H6⟩, ⟨%f7, %hf7, H7⟩, Hk⟩
  subst hf3 hf4 hf5 hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover_whole hz _ _ _), View.canon_unit_zero hz,
      View.readCov_unit_zero (S := S1024x1024) _ hz]
    simp only [View.readAt_eq_ld, View.ld_unit_zero (S := S1024x1024) hz, View.ld_unit_zero (S := S1x1024) hz]
  iexists _; isplitr
  swap; · iexact H7
  ipureintro
  sl_unfold_words
  rw [View.read_writes_eq_canon _ _ _ (cover_whole hz _ _ _), View.canon_unit_zero hz]
  simp only [View.readAt_eq_ld, View.ld_unit_zero (S := S1024x1024) hz]

end Runs

/-! ## Where the windows are live, idle, written back -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The result's window is idle exactly where the last coordinate is not 3. -/
theorem idleAt1_3 : ∀ t : Fin cfg1.N, ¬condOut (grid1.coords t) → cfg1.idle 3 (grid1.coords t) = true := by decide +kernel
theorem liveAt1_3 : ∀ t : Fin cfg1.N, condOut (grid1.coords t) → cfg1.idle 3 (grid1.coords t) = false := by decide +kernel
/-- Off the points ≡ 3 (mod 4) the result's block is not written back. -/
theorem noFlush1_3 (t : Fin cfg1.N) (h : ¬t.val % 4 = 3) : (cfg1.win 3).flush t = false := by
  cases hf : (cfg1.win 3).flush t with
  | false => rfl
  | true => exact absurd ((flush1_3 t).mp hf) h

/-! ## The input windows hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## What the body leaves in each window's buffer -/

theorem leaves1_0 (c : Dev nD) (t : Fin cfg1.N) :
    (dat1 V c).leavesExact 0 t = owns (c : Thread nD τ) (st1_0 t) fullShare (iblk1 V c 0 t) := by
  have e : (dat1 V c).leavesExact 0 t = owns (c : Thread nD τ) (st1_0 t) fullShare ((dat1 V c).after 0 t) := by
    unfold Dat.leavesExact; rw [liveAt1_0 t]
  rw [e, after1_0]
theorem leaves1_1 (c : Dev nD) (t : Fin cfg1.N) :
    (dat1 V c).leavesExact 1 t = owns (c : Thread nD τ) (st1_1 t) fullShare (iblk1 V c 1 t) := by
  have e : (dat1 V c).leavesExact 1 t = owns (c : Thread nD τ) (st1_1 t) fullShare ((dat1 V c).after 1 t) := by
    unfold Dat.leavesExact; rw [liveAt1_1 t]
  rw [e, after1_1]
theorem leaves1_2 (c : Dev nD) (t : Fin cfg1.N) :
    (dat1 V c).leavesExact 2 t = owns (c : Thread nD τ) (st1_2 t) fullShare (iblk1 V c 2 t) := by
  have e : (dat1 V c).leavesExact 2 t = owns (c : Thread nD τ) (st1_2 t) fullShare ((dat1 V c).after 2 t) := by
    unfold Dat.leavesExact; rw [liveAt1_2 t]
  rw [e, after1_2]
/-- Where the result is stored its buffer is left at the accumulator plus the bias block. -/
theorem leaves1_3_live (c : Dev nD) (t : Fin cfg1.N) (h : condOut (grid1.coords t)) :
    (dat1 V c).leavesExact 3 t
      = owns (c : Thread nD τ) (st1_3 t) fullShare (k1_pay3 (accAt V c t.val t.isLt) (iblk1 V c 2 t)) := by
  have e : (dat1 V c).leavesExact 3 t = owns (c : Thread nD τ) (st1_3 t) fullShare ((dat1 V c).after 3 t) := by
    unfold Dat.leavesExact; rw [liveAt1_3 t h]
  rw [e, after1_3]

/-! ## The invariant, opened and closed -/

theorem PhiS_zero (c : Dev nD) (n : ℕ) (h : n ≤ cfg1.N) (hz : n = 0) : PhiS V c n h = Pipeline.ΦA spec1 c := by
  subst hz; rfl

/-- After point `n` the scratch holds that point's accumulator. -/
theorem PhiS_succ (c : Dev nD) (n : ℕ) (hn : n < cfg1.N) :
    PhiS V c (n + 1) hn = iprop(otherStaging (F := F) c ∗ owns (c : Thread nD τ) scratchM fullShare (accAt V c n hn) ∗ (∃ r, prngReg c r)) := rfl

/-- Before a point that is not the first the scratch holds what the point before left. -/
theorem PhiS_pos (c : Dev nD) (n : ℕ) (h : n ≤ cfg1.N) (hz : n ≠ 0) :
    PhiS V c n h = iprop(otherStaging (F := F) c ∗ owns (c : Thread nD τ) scratchM fullShare (accAt V c (n - 1) (by omega)) ∗ (∃ r, prngReg c r)) := by
  cases n with
  | zero => exact absurd rfl hz
  | succ n => rfl

/-- The invariant at a point's start, restated at the point's number. -/
theorem PhiS_castSucc (c : Dev nD) (t : Fin cfg1.N) :
    (dat1 V c).Φ t.castSucc = PhiS V c t.val (Nat.le_of_lt t.isLt) := by
  dsimp only [dat1]; simp only [Fin.coe_castSucc]

/-- The class's invariant is region 0's staging buffers, the scratch at something and the generator register. -/
theorem PhiA1_open (c : Dev nD) :
    (Pipeline.ΦA spec1 c : sProp 𝕄)
      ⊢ iprop(otherStaging (F := F) c ∗ (∃ s, owns (c : Thread nD τ) scratchM fullShare s) ∗ (∃ r, prngReg c r)) := by
  unfold Pipeline.ΦA otherStaging; rw [scopedRest1_eq]; simp only [scratchM, owns_whole]
  iintro ⟨⟨H1, H2, H3, H4, H5, H6, H7, H8, H9, HS⟩, Hg⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS]; · iexact HS
  iexact Hg

theorem PhiA1_close (c : Dev nD) :
    iprop(otherStaging (F := F) c ∗ (∃ s, owns (c : Thread nD τ) scratchM fullShare s) ∗ (∃ r, prngReg c r))
      ⊢ (Pipeline.ΦA spec1 c : sProp 𝕄) := by
  unfold Pipeline.ΦA otherStaging; rw [scopedRest1_eq]; simp only [scratchM, owns_whole]
  iintro ⟨⟨H1, H2, H3, H4, H5, H6, H7, H8, H9⟩, HS, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

/-- At any position the invariant yields the scratch at something: its named contents forgotten. -/
theorem PhiS_open (c : Dev nD) (n : ℕ) (h : n ≤ cfg1.N) :
    PhiS V c n h ⊢ iprop(otherStaging (F := F) c ∗ (∃ s, owns (c : Thread nD τ) scratchM fullShare s) ∗ (∃ r, prngReg c r)) := by
  cases n with
  | zero => exact PhiA1_open c
  | succ n =>
    rw [PhiS_succ]
    iintro ⟨HA, HS, Hg⟩
    isplitl [HA]; · iexact HA
    isplitl [HS]; · iexists _; iexact HS
    iexact Hg

/-! ## The body obligation, at a generic point -/

/-- The input blocks at a point, at their literal types. -/
abbrev xblk (c : Dev nD) (t : Fin cfg1.N) : Vec F S1024x1024 .f32 := iblk1 V c 0 t
abbrev wblk (c : Dev nD) (t : Fin cfg1.N) : Vec F S1024x1024 .bf16 := iblk1 V c 1 t
abbrev bblk (c : Dev nD) (t : Fin cfg1.N) : Vec F S1x1024 .f32 := iblk1 V c 2 t

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point. The inputs' buffers hold their blocks; the point's number mod 4 says which of the three
    control cases it is in. Where it is 0 the scratch is taken at whatever it holds and returned at the block
    product over zero; elsewhere it is taken at what the point before left and returned with the block product
    added; where it is 3 the result's buffer is returned at the accumulator plus the bias, elsewhere as found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, PhiS_castSucc]
  by_cases h0 : t.val % 4 = 0
  · have h3 : ¬t.val % 4 = 3 := by omega
    rw [Dat.leavesExact_idle (dat1 V c) 3 t (idleAt1_3 t (fun h => h3 ((hcondOut t).mp h))) (noFlush1_3 t h3)]
    rw [accAt_reset V c t h0]
    iintro ⟨HΦ, Ho, ⟨%d0, H0⟩, ⟨%d1, H1⟩, ⟨%d2, H2⟩, ⟨%d3, H3⟩⟩
    ihave HΦ' := (PhiS_open V c t.val (Nat.le_of_lt t.isLt)) $$ HΦ
    icases HΦ' with ⟨HA, HS, Hg⟩
    iapply (run_reset c (grid1.coords t) _ _ _ _ _ _ _ _ _ _ ((hcondReset t).mpr h0) (fun h => h3 ((hcondOut t).mp h))
      (xblk V c t) (wblk V c t) (bblk V c t) ((dat1 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HA HS Hg]
    · isplitl [HA]; · iexact HA
      isplitl [HS]; · iexact HS
      iexact Hg
    isplitl [Ho]; · iexact Ho
    isplitl [H0]; · iexact H0
    isplitl [H1]; · iexact H1
    isplitl [H2]; · iexact H2
    iexists d3; iexact H3
  · have hz : t.val ≠ 0 := fun e => h0 (by rw [e])
    rw [accAt_step V c t h0, PhiS_pos V c _ _ hz]
    by_cases h3 : t.val % 4 = 3
    · rw [leaves1_3_live V c t ((hcondOut t).mpr h3), accAt_step V c t h0]
      iintro ⟨⟨HA, HS, Hg⟩, Ho, ⟨%d0, H0⟩, ⟨%d1, H1⟩, ⟨%d2, H2⟩, ⟨%d3, H3⟩⟩
      iapply (run_last c (grid1.coords t) _ _ _ _ _ _ _ _ _ _ (fun h => h0 ((hcondReset t).mp h)) ((hcondOut t).mpr h3)
        (xblk V c t) (wblk V c t) (bblk V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HA HS Hg]
      · isplitl [HA]; · iexact HA
        isplitl [HS]; · iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h3 ((hcondOut t).mp h))) (noFlush1_3 t h3)]
      iintro ⟨⟨HA, HS, Hg⟩, Ho, ⟨%d0, H0⟩, ⟨%d1, H1⟩, ⟨%d2, H2⟩, ⟨%d3, H3⟩⟩
      iapply (run_mid c (grid1.coords t) _ _ _ _ _ _ _ _ _ _ (fun h => h0 ((hcondReset t).mp h)) (fun h => h3 ((hcondOut t).mp h))
        (xblk V c t) (wblk V c t) (bblk V c t) ((dat1 V c).before 3 t d3)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HA HS Hg]
      · isplitl [HA]; · iexact HA
        isplitl [HS]; · iexact HS
        iexact Hg
      isplitl [Ho]; · iexact Ho
      isplitl [H0]; · iexact H0
      isplitl [H1]; · iexact H1
      isplitl [H2]; · iexact H2
      iexists d3; iexact H3

/-- The body obligation of region 1 at every point. -/
theorem body_obligation1 (c : Dev nD) : BodyObligation (dat1 (F := F) V c) (defs₀ (F := F)) Variants.none () Set.univ := by
  intro t
  rw [bigSep_W1, bigSep_W1]
  exact sound_body V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_open V c _ _).trans (PhiA1_close c)

end Cert.Kernel.Hand

end
-- ==== Proof.Bits.Run.lean ====
/-
  The run of @main: a reshape of S, the weight merge (region 0), reshapes of x and of the bias, the blocked matrix
  product (region 1), and a reshape of its result. Between two items a core holds every unscoped buffer at contents
  that are a fold from the launch memory: a host stretch applies its operations; a region leaves its windows' arrays
  at what its write-backs make of them and every other buffer as it found it. From the two regions' body
  obligations, every weakly fair execution terminates without a fault and ends with every unscoped buffer at the
  last contents of that fold. The arguments are written by no item, so they end as launched.
-/
import proofs.«138539_j9663676416607_1_alg».proof.Proof.Bits.MergeBody
import proofs.«138539_j9663676416607_1_alg».proof.Proof.Bits.AccBody
import proofs.«138539_j9663676416607_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev K0 : Dev nD → Valuation τ sig (Elt F) := fun c b => (s₀ m ρ).mem ((c : Dev nD), b)
/-- After the reshape of S: what the merge is entered with. -/
abbrev K1 : Dev nD → Valuation τ sig (Elt F) := fun c => StableHlo.after hostOps0 (K0 m ρ c)
abbrev E1 : (c : Dev nD) → (b : Ref sig .tc) → Buf (Elt F) ((c : Thread nD τ).loc b) := fun c b => K1 m ρ c b
/-- After the merge: its windows' arrays at what the write-backs leave, the rest as entered. -/
def K2 (c : Dev nD) : Valuation τ sig (Elt F) :=
  Pipeline.withArrays spec0 c (K1 m ρ c) fun w => (dat0 (E1 m ρ) c).arrAt w cfg0.N
theorem K2_arr (c : Dev nD) (w : Fin cfg0.W) :
    K2 m ρ c (Proc.devRef .tc (Pipeline.arrRef spec0 w)) = (dat0 (E1 m ρ) c).arrAt w cfg0.N := by
  unfold K2; exact Pipeline.withArrays_arr spec0 launch0.win.arr_inj c _ _ w
theorem K2_of_ne (c : Dev nD) (b : Ref sig .tc) (hb : ∀ w, Pipeline.arrRef spec0 w ≠ b) :
    K2 m ρ c (Proc.devRef .tc b) = K1 m ρ c (Proc.devRef .tc b) := by
  unfold K2; exact Pipeline.withArrays_of_ne spec0 c _ _ b hb
abbrev E2 : (c : Dev nD) → (b : Ref sig .tc) → Buf (Elt F) ((c : Thread nD τ).loc b) := fun c b => K2 m ρ c b
theorem exit0_arr (c : Dev nD) (w : Fin cfg0.W) : (dat0 (E1 m ρ) c).arrAt w cfg0.N = E2 m ρ c (Pipeline.arrRef spec0 w) :=
  (K2_arr m ρ c w).symm
theorem exit0_rest (c : Dev nD) : ∀ b, b ∉ Finset.univ.image (Pipeline.arrRef spec0) → E2 m ρ c b = E1 m ρ c b :=
  fun b hb => K2_of_ne m ρ c b fun w e => hb (Finset.mem_image.mpr ⟨w, Finset.mem_univ _, e⟩)

/-- After the reshapes of x and of the bias: what the matrix product is entered with. -/
abbrev K3 : Dev nD → Valuation τ sig (Elt F) := fun c => StableHlo.after hostOps1 (K2 m ρ c)
abbrev E3 : (c : Dev nD) → (b : Ref sig .tc) → Buf (Elt F) ((c : Thread nD τ).loc b) := fun c b => K3 m ρ c b
/-- After the matrix product. -/
def K4 (c : Dev nD) : Valuation τ sig (Elt F) :=
  Pipeline.withArrays spec1 c (K3 m ρ c) fun w => (dat1 (E3 m ρ) c).arrAt w cfg1.N
theorem K4_arr (c : Dev nD) (w : Fin cfg1.W) :
    K4 m ρ c (Proc.devRef .tc (Pipeline.arrRef spec1 w)) = (dat1 (E3 m ρ) c).arrAt w cfg1.N := by
  unfold K4; exact Pipeline.withArrays_arr spec1 launch1.win.arr_inj c _ _ w
theorem K4_of_ne (c : Dev nD) (b : Ref sig .tc) (hb : ∀ w, Pipeline.arrRef spec1 w ≠ b) :
    K4 m ρ c (Proc.devRef .tc b) = K3 m ρ c (Proc.devRef .tc b) := by
  unfold K4; exact Pipeline.withArrays_of_ne spec1 c _ _ b hb
abbrev E4 : (c : Dev nD) → (b : Ref sig .tc) → Buf (Elt F) ((c : Thread nD τ).loc b) := fun c b => K4 m ρ c b
theorem exit1_arr (c : Dev nD) (w : Fin cfg1.W) : (dat1 (E3 m ρ) c).arrAt w cfg1.N = E4 m ρ c (Pipeline.arrRef spec1 w) :=
  (K4_arr m ρ c w).symm
theorem exit1_rest (c : Dev nD) : ∀ b, b ∉ Finset.univ.image (Pipeline.arrRef spec1) → E4 m ρ c b = E3 m ρ c b :=
  fun b hb => K4_of_ne m ρ c b fun w e => hb (Finset.mem_image.mpr ⟨w, Finset.mem_univ _, e⟩)
/-- After the reshape of the result: the end. -/
abbrev K5 : Dev nD → Valuation τ sig (Elt F) := fun c => StableHlo.after hostOps2 (K4 m ρ c)

/-! ## The proof data family and the thread state -/

abbrev adm' : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E1 m ρ) c
  | ⟨1, _⟩ => fun c => dat1 (E3 m ρ) c
abbrev 𝒱₀ : Variants := Variants.none
abbrev L0 : GSem nD τ sig → Finset Unit := fun _ => ∅
abbrev lv0 : GSem nD τ sig → Unit → ℕ := fun _ _ => 0
/-- What rides beside the buffers through every item: the generator register at some state, nothing owed. -/
abbrev Rd (c : Dev nD) : sProp 𝕄 := iprop((∃ r, prngReg c r) ∗ ∃ W, owes (c : Thread nD τ) (0 : CellTallies nD τ sig Unit) W)
/-- A host stretch from contents `W`. -/
abbrev hstretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev Tend (c : Dev nD) : sProp 𝕄 := iprop(StableHlo.held (c : Thread nD τ) (Pipeline.ucRefs τ sig) (K5 m ρ c) ∗ ∃ r, prngReg c r)

/-! ## The regions as segments -/

set_option backward.isDefEq.respectTransparency.types false in
/-- The merge, entered from every unscoped buffer at `K1` and left at `K2`. Its arrays are split out of the unscoped
    buffers and put back at their exit contents; the generator register passes through the invariant. -/
def regMerge : Pipeline.RegionSeg (pcfgs (F := F)) adm' (pdats m ρ) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L0 lv0 0 fun _ _ => rfl
  pre c := iprop(StableHlo.held (c : Thread nD τ) (Pipeline.ucRefs τ sig) (K1 m ρ c) ∗ Rd c)
  post c := iprop(StableHlo.held (c : Thread nD τ) (Pipeline.ucRefs τ sig) (K2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix product, entered from every unscoped buffer at `K3` and left at `K4`. The invariant's first
    position is what the region is entered with, and its last gives that back with the scratch forgotten. -/
def regAcc : Pipeline.RegionSeg (pcfgs (F := F)) adm' (pdats m ρ) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L0 lv0 1 fun _ _ => rfl
  pre c := iprop(StableHlo.held (c : Thread nD τ) (Pipeline.ucRefs τ sig) (K3 m ρ c) ∗ Rd c)
  post c := iprop(StableHlo.held (c : Thread nD τ) (Pipeline.ucRefs τ sig) (K4 m ρ c) ∗ Rd c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (E3 m ρ) c).Φ 0 from rfl]
    have h := hin1 (E3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (E3 m ρ) c).Φ (Fin.last cfg1.N) from rfl]
    have h := hout1 (E3 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev items : List (Pipeline.Seg (pcfgs (F := F)) adm' (pdats m ρ) () defs₀ 𝒱₀ L0 lv0) :=
  [ .host (hstretch hostOps0 hostOps0_sub hostOps0_fresh (K0 m ρ)),
    .region (regMerge m ρ),
    .host (hstretch hostOps1 hostOps1_sub hostOps1_fresh (K2 m ρ)),
    .region (regAcc m ρ),
    .host (hstretch hostOps2 hostOps2_sub hostOps2_fresh (K4 m ρ)) ]
theorem main_items (c : Dev nD) : main (F := F) c = Pipeline.Seg.run (items m ρ) := (main_chain c).trans (by chain_rfl)

set_option backward.isDefEq.respectTransparency.types false in
/-- From any memory with zero counters every weakly fair execution of @main terminates, nothing faulting, with every
    unscoped buffer of every core at the last contents `K5`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = K5 m ρ c b) :=
  Pipeline.θ_run_regions_kit (pcfgs (F := F)) adm' (pdats m ρ) () cellOf_inj emb₁ defs₀ 𝒱₀ L0 lv0 m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (K0 m ρ c) ∗ Rd c)) (Tₙ := Tend m ρ)
    (hch := ⟨fun _ => .rfl, fun _ => .rfl, fun _ => .rfl, fun _ => .rfl, fun _ => .rfl, fun c => by
      show iprop(StableHlo.held (c : Thread nD τ) (Pipeline.ucRefs τ sig) (K5 m ρ c) ∗ Rd c)
        ⊢ iprop(Tend m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L0 lv0 fun c => ?_
      rw [show unscopedBufs c (fun b => m ((c : Thread nD τ).loc b)) = StableHlo.held (c : Thread nD τ) (Pipeline.ucRefs τ sig) (K0 m ρ c)
        from Pipeline.unscopedBufs_held c (K0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = K5 m ρ c b)
    (hfin := fun c s' => by
      iintro ⟨⟨Hh, -⟩, HSI⟩
      unfold StableHlo.held
      imodintro
      iapply (pointsTo_read_all (Pipeline.ucRefs τ sig) (fun b => (((c : Thread nD τ)).1, b)) (K5 m ρ c) s')
      isplitl [Hh] <;> iassumption)
    (hQ := fun s h c => h c)

/-! ## The arguments end as launched -/

/-- A buffer that is no result of a host operation and no array a region writes keeps its launch contents. -/
theorem K5_of_arg (c : Dev nD) (b : Ref sig .tc)
    (h0 : b ∉ hostOps0_W) (h1 : b ∉ hostOps1_W) (h2 : b ∉ hostOps2_W)
    (hm : K2 m ρ c (Proc.devRef .tc b) = K1 m ρ c (Proc.devRef .tc b))
    (ha : ∀ w, Pipeline.arrRef spec1 w ≠ b) :
    K5 m ρ c (Proc.devRef .tc b) = m ((c : Thread nD τ).loc b) :=
  calc K5 m ρ c (Proc.devRef .tc b)
    _ = K4 m ρ c (Proc.devRef .tc b) := StableHlo.after_of_writes_sub hostOps2 _ hostOps2_writes h2
    _ = K3 m ρ c (Proc.devRef .tc b) := K4_of_ne m ρ c b ha
    _ = K2 m ρ c (Proc.devRef .tc b) := StableHlo.after_of_writes_sub hostOps1 _ hostOps1_writes h1
    _ = K1 m ρ c (Proc.devRef .tc b) := hm
    _ = K0 m ρ c (Proc.devRef .tc b) := StableHlo.after_of_writes_sub hostOps0 _ hostOps0_writes h0
    _ = m ((c : Thread nD τ).loc b) := rfl

/-- An input window's array of the merge is left as entered. -/
theorem K2_in (c : Dev nD) (w : Fin cfg0.W) (hw : (cfg0.win w).isOut = false) :
    K2 m ρ c (Proc.devRef .tc (Pipeline.arrRef spec0 w)) = K1 m ρ c (Proc.devRef .tc (Pipeline.arrRef spec0 w)) :=
  (K2_arr m ρ c w).trans (((dat0 (E1 m ρ) c).arrAt_in w hw _).trans (A_eq0 (E1 m ρ) c w))

theorem K5_main_arg0 (c : Dev nD) : K5 m ρ c (Proc.devRef .tc main_arg0) = m ((c : Thread nD τ).loc main_arg0) :=
  K5_of_arg m ρ c main_arg0 (by decide) (by decide) (by decide) (K2_of_ne m ρ c main_arg0 (by decide)) (by decide)
theorem K5_main_arg1 (c : Dev nD) : K5 m ρ c (Proc.devRef .tc main_arg1) = m ((c : Thread nD τ).loc main_arg1) :=
  K5_of_arg m ρ c main_arg1 (by decide) (by decide) (by decide) (K2_in m ρ c 0 rfl) (by decide)
theorem K5_main_arg2 (c : Dev nD) : K5 m ρ c (Proc.devRef .tc main_arg2) = m ((c : Thread nD τ).loc main_arg2) :=
  K5_of_arg m ρ c main_arg2 (by decide) (by decide) (by decide) (K2_in m ρ c 1 rfl) (by decide)
theorem K5_main_arg3 (c : Dev nD) : K5 m ρ c (Proc.devRef .tc main_arg3) = m ((c : Thread nD τ).loc main_arg3) :=
  K5_of_arg m ρ c main_arg3 (by decide) (by decide) (by decide) (K2_of_ne m ρ c main_arg3 (by decide)) (by decide)
theorem K5_main_arg4 (c : Dev nD) : K5 m ρ c (Proc.devRef .tc main_arg4) = m ((c : Thread nD τ).loc main_arg4) :=
  K5_of_arg m ρ c main_arg4 (by decide) (by decide) (by decide) (K2_in m ρ c 3 rfl) (by decide)
theorem K5_main_arg5 (c : Dev nD) : K5 m ρ c (Proc.devRef .tc main_arg5) = m ((c : Thread nD τ).loc main_arg5) :=
  K5_of_arg m ρ c main_arg5 (by decide) (by decide) (by decide) (K2_of_ne m ρ c main_arg5 (by decide)) (by decide)

/-- The frame: every weakly fair execution terminates without a fault and leaves the six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (K5_main_arg0 m ρ c),
     (h c _ (mem_uc main_arg1 (by decide))).trans (K5_main_arg1 m ρ c),
     (h c _ (mem_uc main_arg2 (by decide))).trans (K5_main_arg2 m ρ c),
     (h c _ (mem_uc main_arg3 (by decide))).trans (K5_main_arg3 m ρ c),
     (h c _ (mem_uc main_arg4 (by decide))).trans (K5_main_arg4 m ρ c),
     (h c _ (mem_uc main_arg5 (by decide))).trans (K5_main_arg5 m ρ c)⟩) (run_all m ρ)

/-- The same run with the result buffer read too: it ends at the last contents, the arguments as launched. -/
theorem run_value : θ_run defs (onTc (τ := τ) (main (F := F))) ⟨m, fun _ => 0, ρ⟩ (fun r => ∀ c : Dev nD,
      r.2.mem ((c.tc : Thread nD τ).loc main_v5) = K5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v5 (by decide)),
     (h c _ (mem_uc main_arg0 (by decide))).trans (K5_main_arg0 m ρ c),
     (h c _ (mem_uc main_arg1 (by decide))).trans (K5_main_arg1 m ρ c),
     (h c _ (mem_uc main_arg2 (by decide))).trans (K5_main_arg2 m ρ c),
     (h c _ (mem_uc main_arg3 (by decide))).trans (K5_main_arg3 m ρ c),
     (h c _ (mem_uc main_arg4 (by decide))).trans (K5_main_arg4 m ρ c),
     (h c _ (mem_uc main_arg5 (by decide))).trans (K5_main_arg5 m ρ c)⟩) (run_all m ρ)

end Cert.Kernel.Hand

end
-- ==== Proof.MergeBody.lean ====
/-
  Region 0 of @main, the weight merge: on a 4 x 4 grid, point (i, j) reads the 1024 x 1024 block (i, j) of the main
  weight, the 1024 x 64 row block i of U, the whole 1 x 64 row S and the 64 x 1024 column block j of V, and stores
  block (i, j) of the merged weight, wm + (u * s) · v. This module states, at any entry contents of the buffers,
  what each window's staging buffer holds after the body at each point, and proves the body's triple there.
-/
import proofs.«138539_j9663676416607_1_alg».proof.Proof.Gen.KernelIdeal.Launch
import proofs.«138539_j9663676416607_1_alg».proof.Proof.Gen.KernelIdeal.Skeleton
import proofs.«138539_j9663676416607_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at grid point `t`, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the four inputs stay at their blocks; the output block is the merged weight's
    block, the body's one stored value of the four input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 1 t) (iblk0 V c 2 t) (iblk0 V c 3 t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay1 (iblk0 V c 1 t) (iblk0 V c 2 t) (iblk0 V c 3 t) (iblk0 V c 0 t) := by dsimp only [dat0]

/-! ## What the body finds in each input window's buffer -/

/-- Window 0 (the main weight's block) holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Window 1 (the row block of U), fetched only where the column coordinate is 0, holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Window 2 (the whole row S), fetched at the first point only, holds its block at every point. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Window 3 (the column block of V) holds its block at every point. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body's triple on whole staging memrefs -/

/-- The whole-block rectangle of the output buffer, through which the body's one store goes. -/
abbrev rOut0 : Rect S1024x1024 := Rect.unit (s := S1024x1024) ![0, 0] S1024x1024.size inb_S1024x1024_S1024x1024_0_0

/-- The printed zero offsets are the zero function. -/
theorem zeros2 : (![0, 0] : Fin 2 → ℕ) = fun _ => 0 := funext fun a => by fin_cases a <;> rfl

/-- The one store covers the output buffer: every index lies in the whole-block rectangle. -/
theorem cover0_4 (p0 : Vec F S1024x1024 .bf16) (y : S1024x1024.Idx) :
    ∃ pc ∈ ([⟨rOut0, p0⟩] : List (View.Piece (Elt F) S1024x1024 .bf16)), y ∈ pc.1.set :=
  ⟨_, List.mem_singleton_self _, View.mem_set_unit_zero zeros2 inb_S1024x1024_S1024x1024_0_0 y⟩

set_option maxHeartbeats 1000000 in
/-- From the four inputs' memrefs at read contents `x0 x1 x2 x3` and the output's at anything, the body runs to the
    continuation with the inputs as they were and the output at the merged block of the inputs. -/
theorem sound_kernel0 (c : Dev nD) (E : Set ℕ) (i : grid0.Coords)
    (arg2 : Memref sig .tc .vmem S1024x1024 .f32) (harg2 : arg2.IsWhole)
    (arg3 : Memref sig .tc .vmem S1024x64 .f32) (harg3 : arg3.IsWhole)
    (arg4 : Memref sig .tc .vmem S1x64 .f32) (harg4 : arg4.IsWhole)
    (arg5 : Memref sig .tc .vmem S64x1024 .f32) (harg5 : arg5.IsWhole)
    (arg6 : Memref sig .tc .vmem S1024x1024 .bf16) (harg6 : arg6.IsWhole)
    (x0 : Vec F S1024x1024 .f32) (x1 : Vec F S1024x64 .f32) (x2 : Vec F S1x64 .f32) (x3 : Vec F S64x1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 x1 x2 x3 x0)) -∗ K ⟨⟩))
      ⊢ wp frame (wpE (defs₀ (F := F)) Variants.none c none) E
          (cc0__merge_kernel i arg2 harg2 arg3 harg3 arg4 harg4 arg5 harg5 arg6 harg6) K := by
  simp only [cc0__merge_kernel_eq_skeleton]; unfold cc0__merge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover0_4 _), View.canon_unit_zero zeros2,
    View.readAt_eq_ld, View.readAt_eq_ld, View.readAt_eq_ld, View.readAt_eq_ld,
    View.ld_unit_zero zeros2, View.ld_unit_zero zeros2, View.ld_unit_zero zeros2, View.ld_unit_zero zeros2]

/-! ## The body obligation, at a generic point -/

/-- What the body is called with at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the invariant and the debt at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the four inputs' buffers hold their blocks, so the kernel's triple applies at those
    blocks; the invariant and the debt are constant in the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AccBody.lean ====
/-
  Region 1 of @main, the blocked matrix product: on an 8 x 4 x 4 grid, point (i, j, k) reads the 1024 x 1024 block
  (i, k) of x, the block (j, k) of the merged weight and the 1 x 1024 block j of the bias. A scratch accumulator is
  zeroed at k = 0, gains x_blk · w_blkᵀ at every point, and at k = 3 the accumulator plus the bias is stored as
  block (i, j) of the result. This module states what the scratch holds after each point, the proof data, and
  proves the body's triple at each point.
-/
import proofs.«138539_j9663676416607_1_alg».proof.Proof.Gen.KernelIdeal.Launch
import proofs.«138539_j9663676416607_1_alg».proof.Proof.Gen.KernelIdeal.Skeleton
import proofs.«138539_j9663676416607_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at grid point `t`, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator after point `n`: the body's update of what the point before left, or of zero
    where the last grid coordinate is 0 (the points ≡ 0 mod 4). -/
def accAt (c : Dev nD) : (n : ℕ) → n < cfg1.N → Vec F S1024x1024 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 4 = 0 then k1_pay1 (F := F) else accAt c n (Nat.lt_of_succ_lt h))

theorem accAt_reset (c : Dev nD) (t : Fin cfg1.N) (h : t.val % 4 = 0) :
    accAt V c t.val t.isLt = k1_pay2 (iblk1 V c 0 t) (iblk1 V c 1 t) (k1_pay1 (F := F)) := by
  obtain ⟨n, hn⟩ := t
  cases n with
  | zero => rfl
  | succ n =>
    show k1_pay2 (iblk1 V c 0 ⟨n + 1, hn⟩) (iblk1 V c 1 ⟨n + 1, hn⟩)
      (if (n + 1) % 4 = 0 then k1_pay1 (F := F) else accAt V c n (Nat.lt_of_succ_lt hn)) = _
    rw [if_pos h]

theorem accAt_step (c : Dev nD) (t : Fin cfg1.N) (h : t.val % 4 ≠ 0) :
    accAt V c t.val t.isLt = k1_pay2 (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod 4) h
  | succ n =>
    show k1_pay2 (iblk1 V c 0 ⟨n + 1, hn⟩) (iblk1 V c 1 ⟨n + 1, hn⟩)
      (if (n + 1) % 4 = 0 then k1_pay1 (F := F) else accAt V c n (Nat.lt_of_succ_lt hn)) = _
    rw [if_neg h]
    rfl

/-- The scoped buffers of the core that are neither a staging buffer of this region nor its scratch (region 0's
    nine staging buffers), each whole at some contents. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The scratch memref the body is called with. -/
abbrev scratchM : Memref sig .tc .vmem S1024x1024 .f32 := Memref.whole cc1_scratch0

/-- The region's invariant before position `n`: before the first point the class's (every scoped buffer that is
    no staging buffer at anything, the generator register at some state); afterwards the same with the scratch
    at what the point before left in it. -/
def PhiS (c : Dev nD) : (n : ℕ) → n ≤ cfg1.N → sProp 𝕄
  | 0, _ => Pipeline.ΦA spec1 c
  | n + 1, hn => iprop(otherStaging (F := F) c ∗ owns (c : Thread nD τ) scratchM fullShare (accAt V c n hn) ∗ (∃ r, prngReg c r))

/-- Region 1's proof data: the three inputs stay at their blocks; the output block (stored where the last
    grid coordinate is 3) is the accumulator after the point plus the bias block, broadcast along the rows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt V c t.val t.isLt) (iblk1 V c 2 t) := by dsimp only [dat1]

/-! ## The body's two conditions -/

/-- The first conditional's condition as the body computes it: the last grid coordinate is 0. -/
abbrev condReset (i : grid1.Coords) : Prop :=
  Scalar.cmpi .ne (Scalar.extui (Scalar.cmpi .eq (BitVec.ofNat 32 (i 2).val) 0#32)) 0#32 = 1#1

/-- The second conditional's condition: the last grid coordinate is 3. -/
abbrev condOut (i : grid1.Coords) : Prop := k1_cond2 i = 1#1

/-- The accumulator is zeroed at the points ≡ 0 (mod 4): the last coordinate runs fastest. -/
theorem hcondReset : ∀ t : Fin cfg1.N, condReset (grid1.coords t) ↔ t.val % 4 = 0 :=
  (by decide +kernel : ∀ t : Fin grid1.N, condReset (grid1.coords t) ↔ t.val % 4 = 0)

/-- The result is stored at the points ≡ 3 (mod 4). -/
theorem hcondOut : ∀ t : Fin cfg1.N, condOut (grid1.coords t) ↔ t.val % 4 = 3 :=
  (by decide +kernel : ∀ t : Fin grid1.N, condOut (grid1.coords t) ↔ t.val % 4 = 3)

/-! ## Reading back what a whole-buffer store left -/

/-- The whole-buffer rectangle's offsets are zero. -/
theorem hz : (![0, 0] : Fin 2 → Nat) = fun _ => 0 := funext fun a => by fin_cases a <;> rfl

/-- A list of stores whose last one goes through the whole-buffer rectangle covers every index. -/
theorem cover_whole {S : Shape} {e : EltTy} {off : Fin S.rank → Nat} (h : off = fun _ => 0) (inb : ∀ a, off a + S.size a ≤ S.size a)
    (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons_self, View.mem_set_unit_zero h inb y⟩

section Runs

variable (c : Dev nD) (i : grid1.Coords)
  (arg3 : Memref sig .tc .vmem S1024x1024 .f32) (harg3 : arg3.IsWhole) (arg4 : Memref sig .tc .vmem S1024x1024 .bf16) (harg4 : arg4.IsWhole)
  (arg5 : Memref sig .tc .vmem S1x1024 .f32) (harg5 : arg5.IsWhole) (arg6 : Memref sig .tc .vmem S1024x1024 .f32) (harg6 : arg6.IsWhole)
  (arg7 : Memref sig .tc .vmem S1024x1024 .f32) (harg7 : arg7.IsWhole)

/-- The body where the last coordinate is 0: whatever the accumulator held, it is zeroed and then gains the
    block product; the bias and the result's buffer are not touched. -/
theorem run_reset (hc0 : condReset i) (hc1 : ¬condOut i)
    (x : Vec F S1024x1024 .f32) (w : Vec F S1024x1024 .bf16) (b : Vec F S1x1024 .f32) (d : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare d ∗ (∃ s, owns (c : Thread nD τ) arg7 fullShare s)
        ∗ (iprop(owns (c : Thread nD τ) arg3 fullShare x ∗ owns (c : Thread nD τ) arg4 fullShare w ∗ owns (c : Thread nD τ) arg5 fullShare b
            ∗ owns (c : Thread nD τ) arg6 fullShare d ∗ owns (c : Thread nD τ) arg7 fullShare (k1_pay2 x w (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%s, %f7, -, H7⟩, Hk⟩
  subst hf3 hf4 hf5 hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  rw [View.read_writes_eq_canon _ _ _ (cover_whole hz _ _ _), View.canon_cons_unit_zero (S := S1024x1024) hz,
    View.readCov_unit_zero (S := S1024x1024) _ hz]
  simp only [View.readAt_eq_ld, View.ld_unit_zero (S := S1024x1024) hz]

/-- The body where the last coordinate is 1 or 2: the accumulator gains the block product. -/
theorem run_mid (hc0 : ¬condReset i) (hc1 : ¬condOut i)
    (x : Vec F S1024x1024 .f32) (w : Vec F S1024x1024 .bf16) (b : Vec F S1x1024 .f32) (d : Vec F S1024x1024 .f32) (s : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare d ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare d ∗ owns (c : Thread nD τ) arg7 fullShare (k1_pay2 x w s)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover_whole hz _ _ _), View.canon_unit_zero hz]
  simp only [View.readAt_eq_ld, View.ld_unit_zero (S := S1024x1024) hz]

/-- The body where the last coordinate is 3: the accumulator gains the block product, and the result's buffer
    receives the accumulator plus the bias row. -/
theorem run_last (hc0 : ¬condReset i) (hc1 : condOut i)
    (x : Vec F S1024x1024 .f32) (w : Vec F S1024x1024 .bf16) (b : Vec F S1x1024 .f32) (s : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w s) b) ∗ owns (c : Thread nD τ) arg7 fullShare (k1_pay2 x w s)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d, %f6, -, H6⟩, ⟨%f7, %hf7, H7⟩, Hk⟩
  subst hf3 hf4 hf5 hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover_whole hz _ _ _), View.canon_unit_zero hz,
      View.readCov_unit_zero (S := S1024x1024) _ hz]
    simp only [View.readAt_eq_ld, View.ld_unit_zero (S := S1024x1024) hz, View.ld_unit_zero (S := S1x1024) hz]
  iexists _; isplitr
  swap; · iexact H7
  ipureintro
  sl_unfold_words
  rw [View.read_writes_eq_canon _ _ _ (cover_whole hz _ _ _), View.canon_unit_zero hz]
  simp only [View.readAt_eq_ld, View.ld_unit_zero (S := S1024x1024) hz]

end Runs

/-! ## Where the windows are live, idle, written back -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The result's window is idle exactly where the last coordinate is not 3. -/
theorem idleAt1_3 : ∀ t : Fin cfg1.N, ¬condOut (grid1.coords t) → cfg1.idle 3 (grid1.coords t) = true := by decide +kernel
theorem liveAt1_3 : ∀ t : Fin cfg1.N, condOut (grid1.coords t) → cfg1.idle 3 (grid1.coords t) = false := by decide +kernel
/-- Off the points ≡ 3 (mod 4) the result's block is not written back. -/
theorem noFlush1_3 (t : Fin cfg1.N) (h : ¬t.val % 4 = 3) : (cfg1.win 3).flush t = false := by
  cases hf : (cfg1.win 3).flush t with
  | false => rfl
  | true => exact absurd ((flush1_3 t).mp hf) h

/-! ## The input windows hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## What the body leaves in each window's buffer -/

theorem leaves1_0 (c : Dev nD) (t : Fin cfg1.N) :
    (dat1 V c).leavesExact 0 t = owns (c : Thread nD τ) (st1_0 t) fullShare (iblk1 V c 0 t) := by
  have e : (dat1 V c).leavesExact 0 t = owns (c : Thread nD τ) (st1_0 t) fullShare ((dat1 V c).after 0 t) := by
    unfold Dat.leavesExact; rw [liveAt1_0 t]
  rw [e, after1_0]
theorem leaves1_1 (c : Dev nD) (t : Fin cfg1.N) :
    (dat1 V c).leavesExact 1 t = owns (c : Thread nD τ) (st1_1 t) fullShare (iblk1 V c 1 t) := by
  have e : (dat1 V c).leavesExact 1 t = owns (c : Thread nD τ) (st1_1 t) fullShare ((dat1 V c).after 1 t) := by
    unfold Dat.leavesExact; rw [liveAt1_1 t]
  rw [e, after1_1]
theorem leaves1_2 (c : Dev nD) (t : Fin cfg1.N) :
    (dat1 V c).leavesExact 2 t = owns (c : Thread nD τ) (st1_2 t) fullShare (iblk1 V c 2 t) := by
  have e : (dat1 V c).leavesExact 2 t = owns (c : Thread nD τ) (st1_2 t) fullShare ((dat1 V c).after 2 t) := by
    unfold Dat.leavesExact; rw [liveAt1_2 t]
  rw [e, after1_2]
/-- Where the result is stored its buffer is left at the accumulator plus the bias block. -/
theorem leaves1_3_live (c : Dev nD) (t : Fin cfg1.N) (h : condOut (grid1.coords t)) :
    (dat1 V c).leavesExact 3 t
      = owns (c : Thread nD τ) (st1_3 t) fullShare (k1_pay3 (accAt V c t.val t.isLt) (iblk1 V c 2 t)) := by
  have e : (dat1 V c).leavesExact 3 t = owns (c : Thread nD τ) (st1_3 t) fullShare ((dat1 V c).after 3 t) := by
    unfold Dat.leavesExact; rw [liveAt1_3 t h]
  rw [e, after1_3]

/-! ## The invariant, opened and closed -/

theorem PhiS_zero (c : Dev nD) (n : ℕ) (h : n ≤ cfg1.N) (hz : n = 0) : PhiS V c n h = Pipeline.ΦA spec1 c := by
  subst hz; rfl

/-- After point `n` the scratch holds that point's accumulator. -/
theorem PhiS_succ (c : Dev nD) (n : ℕ) (hn : n < cfg1.N) :
    PhiS V c (n + 1) hn = iprop(otherStaging (F := F) c ∗ owns (c : Thread nD τ) scratchM fullShare (accAt V c n hn) ∗ (∃ r, prngReg c r)) := rfl

/-- Before a point that is not the first the scratch holds what the point before left. -/
theorem PhiS_pos (c : Dev nD) (n : ℕ) (h : n ≤ cfg1.N) (hz : n ≠ 0) :
    PhiS V c n h = iprop(otherStaging (F := F) c ∗ owns (c : Thread nD τ) scratchM fullShare (accAt V c (n - 1) (by omega)) ∗ (∃ r, prngReg c r)) := by
  cases n with
  | zero => exact absurd rfl hz
  | succ n => rfl

/-- The invariant at a point's start, restated at the point's number. -/
theorem PhiS_castSucc (c : Dev nD) (t : Fin cfg1.N) :
    (dat1 V c).Φ t.castSucc = PhiS V c t.val (Nat.le_of_lt t.isLt) := by
  dsimp only [dat1]; simp only [Fin.coe_castSucc]

/-- The class's invariant is region 0's staging buffers, the scratch at something and the generator register. -/
theorem PhiA1_open (c : Dev nD) :
    (Pipeline.ΦA spec1 c : sProp 𝕄)
      ⊢ iprop(otherStaging (F := F) c ∗ (∃ s, owns (c : Thread nD τ) scratchM fullShare s) ∗ (∃ r, prngReg c r)) := by
  unfold Pipeline.ΦA otherStaging; rw [scopedRest1_eq]; simp only [scratchM, owns_whole]
  iintro ⟨⟨H1, H2, H3, H4, H5, H6, H7, H8, H9, HS⟩, Hg⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS]; · iexact HS
  iexact Hg

theorem PhiA1_close (c : Dev nD) :
    iprop(otherStaging (F := F) c ∗ (∃ s, owns (c : Thread nD τ) scratchM fullShare s) ∗ (∃ r, prngReg c r))
      ⊢ (Pipeline.ΦA spec1 c : sProp 𝕄) := by
  unfold Pipeline.ΦA otherStaging; rw [scopedRest1_eq]; simp only [scratchM, owns_whole]
  iintro ⟨⟨H1, H2, H3, H4, H5, H6, H7, H8, H9⟩, HS, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

/-- At any position the invariant yields the scratch at something: its named contents forgotten. -/
theorem PhiS_open (c : Dev nD) (n : ℕ) (h : n ≤ cfg1.N) :
    PhiS V c n h ⊢ iprop(otherStaging (F := F) c ∗ (∃ s, owns (c : Thread nD τ) scratchM fullShare s) ∗ (∃ r, prngReg c r)) := by
  cases n with
  | zero => exact PhiA1_open c
  | succ n =>
    rw [PhiS_succ]
    iintro ⟨HA, HS, Hg⟩
    isplitl [HA]; · iexact HA
    isplitl [HS]; · iexists _; iexact HS
    iexact Hg

/-! ## The body obligation, at a generic point -/

/-- The input blocks at a point, at their literal types. -/
abbrev xblk (c : Dev nD) (t : Fin cfg1.N) : Vec F S1024x1024 .f32 := iblk1 V c 0 t
abbrev wblk (c : Dev nD) (t : Fin cfg1.N) : Vec F S1024x1024 .bf16 := iblk1 V c 1 t
abbrev bblk (c : Dev nD) (t : Fin cfg1.N) : Vec F S1x1024 .f32 := iblk1 V c 2 t

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point. The inputs' buffers hold their blocks; the point's number mod 4 says which of the three
    control cases it is in. Where it is 0 the scratch is taken at whatever it holds and returned at the block
    product over zero; elsewhere it is taken at what the point before left and returned with the block product
    added; where it is 3 the result's buffer is returned at the accumulator plus the bias, elsewhere as found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, PhiS_castSucc]
  by_cases h0 : t.val % 4 = 0
  · have h3 : ¬t.val % 4 = 3 := by omega
    rw [Dat.leavesExact_idle (dat1 V c) 3 t (idleAt1_3 t (fun h => h3 ((hcondOut t).mp h))) (noFlush1_3 t h3)]
    rw [accAt_reset V c t h0]
    iintro ⟨HΦ, Ho, ⟨%d0, H0⟩, ⟨%d1, H1⟩, ⟨%d2, H2⟩, ⟨%d3, H3⟩⟩
    ihave HΦ' := (PhiS_open V c t.val (Nat.le_of_lt t.isLt)) $$ HΦ
    icases HΦ' with ⟨HA, HS, Hg⟩
    iapply (run_reset c (grid1.coords t) _ _ _ _ _ _ _ _ _ _ ((hcondReset t).mpr h0) (fun h => h3 ((hcondOut t).mp h))
      (xblk V c t) (wblk V c t) (bblk V c t) ((dat1 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HA HS Hg]
    · isplitl [HA]; · iexact HA
      isplitl [HS]; · iexact HS
      iexact Hg
    isplitl [Ho]; · iexact Ho
    isplitl [H0]; · iexact H0
    isplitl [H1]; · iexact H1
    isplitl [H2]; · iexact H2
    iexists d3; iexact H3
  · have hz : t.val ≠ 0 := fun e => h0 (by rw [e])
    rw [accAt_step V c t h0, PhiS_pos V c _ _ hz]
    by_cases h3 : t.val % 4 = 3
    · rw [leaves1_3_live V c t ((hcondOut t).mpr h3), accAt_step V c t h0]
      iintro ⟨⟨HA, HS, Hg⟩, Ho, ⟨%d0, H0⟩, ⟨%d1, H1⟩, ⟨%d2, H2⟩, ⟨%d3, H3⟩⟩
      iapply (run_last c (grid1.coords t) _ _ _ _ _ _ _ _ _ _ (fun h => h0 ((hcondReset t).mp h)) ((hcondOut t).mpr h3)
        (xblk V c t) (wblk V c t) (bblk V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HA HS Hg]
      · isplitl [HA]; · iexact HA
        isplitl [HS]; · iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h3 ((hcondOut t).mp h))) (noFlush1_3 t h3)]
      iintro ⟨⟨HA, HS, Hg⟩, Ho, ⟨%d0, H0⟩, ⟨%d1, H1⟩, ⟨%d2, H2⟩, ⟨%d3, H3⟩⟩
      iapply (run_mid c (grid1.coords t) _ _ _ _ _ _ _ _ _ _ (fun h => h0 ((hcondReset t).mp h)) (fun h => h3 ((hcondOut t).mp h))
        (xblk V c t) (wblk V c t) (bblk V c t) ((dat1 V c).before 3 t d3)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HA HS Hg]
      · isplitl [HA]; · iexact HA
        isplitl [HS]; · iexact HS
        iexact Hg
      isplitl [Ho]; · iexact Ho
      isplitl [H0]; · iexact H0
      isplitl [H1]; · iexact H1
      isplitl [H2]; · iexact H2
      iexists d3; iexact H3

/-- The body obligation of region 1 at every point. -/
theorem body_obligation1 (c : Dev nD) : BodyObligation (dat1 (F := F) V c) (defs₀ (F := F)) Variants.none () Set.univ := by
  intro t
  rw [bigSep_W1, bigSep_W1]
  exact sound_body V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_open V c _ _).trans (PhiA1_close c)

end Cert.KernelIdeal.Hand

end
-- ==== Proof.Run.lean ====
/-
  The run of @main: a reshape of S, the weight merge (region 0), reshapes of x and of the bias, the blocked matrix
  product (region 1), and a reshape of its result. Between two items a core holds every unscoped buffer at contents
  that are a fold from the launch memory: a host stretch applies its operations; a region leaves its windows' arrays
  at what its write-backs make of them and every other buffer as it found it. From the two regions' body
  obligations, every weakly fair execution terminates without a fault and ends with every unscoped buffer at the
  last contents of that fold. The arguments are written by no item, so they end as launched.
-/
import proofs.«138539_j9663676416607_1_alg».proof.Proof.MergeBody
import proofs.«138539_j9663676416607_1_alg».proof.Proof.AccBody
import proofs.«138539_j9663676416607_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev K0 : Dev nD → Valuation τ sig (Elt F) := fun c b => (s₀ m ρ).mem ((c : Dev nD), b)
/-- After the reshape of S: what the merge is entered with. -/
abbrev K1 : Dev nD → Valuation τ sig (Elt F) := fun c => StableHlo.after hostOps0 (K0 m ρ c)
abbrev E1 : (c : Dev nD) → (b : Ref sig .tc) → Buf (Elt F) ((c : Thread nD τ).loc b) := fun c b => K1 m ρ c b
/-- After the merge: its windows' arrays at what the write-backs leave, the rest as entered. -/
def K2 (c : Dev nD) : Valuation τ sig (Elt F) :=
  Pipeline.withArrays spec0 c (K1 m ρ c) fun w => (dat0 (E1 m ρ) c).arrAt w cfg0.N
theorem K2_arr (c : Dev nD) (w : Fin cfg0.W) :
    K2 m ρ c (Proc.devRef .tc (Pipeline.arrRef spec0 w)) = (dat0 (E1 m ρ) c).arrAt w cfg0.N := by
  unfold K2; exact Pipeline.withArrays_arr spec0 launch0.win.arr_inj c _ _ w
theorem K2_of_ne (c : Dev nD) (b : Ref sig .tc) (hb : ∀ w, Pipeline.arrRef spec0 w ≠ b) :
    K2 m ρ c (Proc.devRef .tc b) = K1 m ρ c (Proc.devRef .tc b) := by
  unfold K2; exact Pipeline.withArrays_of_ne spec0 c _ _ b hb
abbrev E2 : (c : Dev nD) → (b : Ref sig .tc) → Buf (Elt F) ((c : Thread nD τ).loc b) := fun c b => K2 m ρ c b
theorem exit0_arr (c : Dev nD) (w : Fin cfg0.W) : (dat0 (E1 m ρ) c).arrAt w cfg0.N = E2 m ρ c (Pipeline.arrRef spec0 w) :=
  (K2_arr m ρ c w).symm
theorem exit0_rest (c : Dev nD) : ∀ b, b ∉ Finset.univ.image (Pipeline.arrRef spec0) → E2 m ρ c b = E1 m ρ c b :=
  fun b hb => K2_of_ne m ρ c b fun w e => hb (Finset.mem_image.mpr ⟨w, Finset.mem_univ _, e⟩)

/-- After the reshapes of x and of the bias: what the matrix product is entered with. -/
abbrev K3 : Dev nD → Valuation τ sig (Elt F) := fun c => StableHlo.after hostOps1 (K2 m ρ c)
abbrev E3 : (c : Dev nD) → (b : Ref sig .tc) → Buf (Elt F) ((c : Thread nD τ).loc b) := fun c b => K3 m ρ c b
/-- After the matrix product. -/
def K4 (c : Dev nD) : Valuation τ sig (Elt F) :=
  Pipeline.withArrays spec1 c (K3 m ρ c) fun w => (dat1 (E3 m ρ) c).arrAt w cfg1.N
theorem K4_arr (c : Dev nD) (w : Fin cfg1.W) :
    K4 m ρ c (Proc.devRef .tc (Pipeline.arrRef spec1 w)) = (dat1 (E3 m ρ) c).arrAt w cfg1.N := by
  unfold K4; exact Pipeline.withArrays_arr spec1 launch1.win.arr_inj c _ _ w
theorem K4_of_ne (c : Dev nD) (b : Ref sig .tc) (hb : ∀ w, Pipeline.arrRef spec1 w ≠ b) :
    K4 m ρ c (Proc.devRef .tc b) = K3 m ρ c (Proc.devRef .tc b) := by
  unfold K4; exact Pipeline.withArrays_of_ne spec1 c _ _ b hb
abbrev E4 : (c : Dev nD) → (b : Ref sig .tc) → Buf (Elt F) ((c : Thread nD τ).loc b) := fun c b => K4 m ρ c b
theorem exit1_arr (c : Dev nD) (w : Fin cfg1.W) : (dat1 (E3 m ρ) c).arrAt w cfg1.N = E4 m ρ c (Pipeline.arrRef spec1 w) :=
  (K4_arr m ρ c w).symm
theorem exit1_rest (c : Dev nD) : ∀ b, b ∉ Finset.univ.image (Pipeline.arrRef spec1) → E4 m ρ c b = E3 m ρ c b :=
  fun b hb => K4_of_ne m ρ c b fun w e => hb (Finset.mem_image.mpr ⟨w, Finset.mem_univ _, e⟩)
/-- After the reshape of the result: the end. -/
abbrev K5 : Dev nD → Valuation τ sig (Elt F) := fun c => StableHlo.after hostOps2 (K4 m ρ c)

/-! ## The proof data family and the thread state -/

abbrev adm' : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E1 m ρ) c
  | ⟨1, _⟩ => fun c => dat1 (E3 m ρ) c
abbrev 𝒱₀ : Variants := Variants.none
abbrev L0 : GSem nD τ sig → Finset Unit := fun _ => ∅
abbrev lv0 : GSem nD τ sig → Unit → ℕ := fun _ _ => 0
/-- What rides beside the buffers through every item: the generator register at some state, nothing owed. -/
abbrev Rd (c : Dev nD) : sProp 𝕄 := iprop((∃ r, prngReg c r) ∗ ∃ W, owes (c : Thread nD τ) (0 : CellTallies nD τ sig Unit) W)
/-- A host stretch from contents `W`. -/
abbrev hstretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev Tend (c : Dev nD) : sProp 𝕄 := iprop(StableHlo.held (c : Thread nD τ) (Pipeline.ucRefs τ sig) (K5 m ρ c) ∗ ∃ r, prngReg c r)

/-! ## The regions as segments -/

set_option backward.isDefEq.respectTransparency.types false in
/-- The merge, entered from every unscoped buffer at `K1` and left at `K2`. Its arrays are split out of the unscoped
    buffers and put back at their exit contents; the generator register passes through the invariant. -/
def regMerge : Pipeline.RegionSeg (pcfgs (F := F)) adm' (pdats m ρ) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L0 lv0 0 fun _ _ => rfl
  pre c := iprop(StableHlo.held (c : Thread nD τ) (Pipeline.ucRefs τ sig) (K1 m ρ c) ∗ Rd c)
  post c := iprop(StableHlo.held (c : Thread nD τ) (Pipeline.ucRefs τ sig) (K2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix product, entered from every unscoped buffer at `K3` and left at `K4`. The invariant's first
    position is what the region is entered with, and its last gives that back with the scratch forgotten. -/
def regAcc : Pipeline.RegionSeg (pcfgs (F := F)) adm' (pdats m ρ) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L0 lv0 1 fun _ _ => rfl
  pre c := iprop(StableHlo.held (c : Thread nD τ) (Pipeline.ucRefs τ sig) (K3 m ρ c) ∗ Rd c)
  post c := iprop(StableHlo.held (c : Thread nD τ) (Pipeline.ucRefs τ sig) (K4 m ρ c) ∗ Rd c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (E3 m ρ) c).Φ 0 from rfl]
    have h := hin1 (E3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (E3 m ρ) c).Φ (Fin.last cfg1.N) from rfl]
    have h := hout1 (E3 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev items : List (Pipeline.Seg (pcfgs (F := F)) adm' (pdats m ρ) () defs₀ 𝒱₀ L0 lv0) :=
  [ .host (hstretch hostOps0 hostOps0_sub hostOps0_fresh (K0 m ρ)),
    .region (regMerge m ρ),
    .host (hstretch hostOps1 hostOps1_sub hostOps1_fresh (K2 m ρ)),
    .region (regAcc m ρ),
    .host (hstretch hostOps2 hostOps2_sub hostOps2_fresh (K4 m ρ)) ]
theorem main_items (c : Dev nD) : main (F := F) c = Pipeline.Seg.run (items m ρ) := (main_chain c).trans (by chain_rfl)

set_option backward.isDefEq.respectTransparency.types false in
/-- From any memory with zero counters every weakly fair execution of @main terminates, nothing faulting, with every
    unscoped buffer of every core at the last contents `K5`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = K5 m ρ c b) :=
  Pipeline.θ_run_regions_kit (pcfgs (F := F)) adm' (pdats m ρ) () cellOf_inj emb₁ defs₀ 𝒱₀ L0 lv0 m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (K0 m ρ c) ∗ Rd c)) (Tₙ := Tend m ρ)
    (hch := ⟨fun _ => .rfl, fun _ => .rfl, fun _ => .rfl, fun _ => .rfl, fun _ => .rfl, fun c => by
      show iprop(StableHlo.held (c : Thread nD τ) (Pipeline.ucRefs τ sig) (K5 m ρ c) ∗ Rd c)
        ⊢ iprop(Tend m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L0 lv0 fun c => ?_
      rw [show unscopedBufs c (fun b => m ((c : Thread nD τ).loc b)) = StableHlo.held (c : Thread nD τ) (Pipeline.ucRefs τ sig) (K0 m ρ c)
        from Pipeline.unscopedBufs_held c (K0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = K5 m ρ c b)
    (hfin := fun c s' => by
      iintro ⟨⟨Hh, -⟩, HSI⟩
      unfold StableHlo.held
      imodintro
      iapply (pointsTo_read_all (Pipeline.ucRefs τ sig) (fun b => (((c : Thread nD τ)).1, b)) (K5 m ρ c) s')
      isplitl [Hh] <;> iassumption)
    (hQ := fun s h c => h c)

/-! ## The arguments end as launched -/

/-- A buffer that is no result of a host operation and no array a region writes keeps its launch contents. -/
theorem K5_of_arg (c : Dev nD) (b : Ref sig .tc)
    (h0 : b ∉ hostOps0_W) (h1 : b ∉ hostOps1_W) (h2 : b ∉ hostOps2_W)
    (hm : K2 m ρ c (Proc.devRef .tc b) = K1 m ρ c (Proc.devRef .tc b))
    (ha : ∀ w, Pipeline.arrRef spec1 w ≠ b) :
    K5 m ρ c (Proc.devRef .tc b) = m ((c : Thread nD τ).loc b) :=
  calc K5 m ρ c (Proc.devRef .tc b)
    _ = K4 m ρ c (Proc.devRef .tc b) := StableHlo.after_of_writes_sub hostOps2 _ hostOps2_writes h2
    _ = K3 m ρ c (Proc.devRef .tc b) := K4_of_ne m ρ c b ha
    _ = K2 m ρ c (Proc.devRef .tc b) := StableHlo.after_of_writes_sub hostOps1 _ hostOps1_writes h1
    _ = K1 m ρ c (Proc.devRef .tc b) := hm
    _ = K0 m ρ c (Proc.devRef .tc b) := StableHlo.after_of_writes_sub hostOps0 _ hostOps0_writes h0
    _ = m ((c : Thread nD τ).loc b) := rfl

/-- An input window's array of the merge is left as entered. -/
theorem K2_in (c : Dev nD) (w : Fin cfg0.W) (hw : (cfg0.win w).isOut = false) :
    K2 m ρ c (Proc.devRef .tc (Pipeline.arrRef spec0 w)) = K1 m ρ c (Proc.devRef .tc (Pipeline.arrRef spec0 w)) :=
  (K2_arr m ρ c w).trans (((dat0 (E1 m ρ) c).arrAt_in w hw _).trans (A_eq0 (E1 m ρ) c w))

theorem K5_main_arg0 (c : Dev nD) : K5 m ρ c (Proc.devRef .tc main_arg0) = m ((c : Thread nD τ).loc main_arg0) :=
  K5_of_arg m ρ c main_arg0 (by decide) (by decide) (by decide) (K2_of_ne m ρ c main_arg0 (by decide)) (by decide)
theorem K5_main_arg1 (c : Dev nD) : K5 m ρ c (Proc.devRef .tc main_arg1) = m ((c : Thread nD τ).loc main_arg1) :=
  K5_of_arg m ρ c main_arg1 (by decide) (by decide) (by decide) (K2_in m ρ c 0 rfl) (by decide)
theorem K5_main_arg2 (c : Dev nD) : K5 m ρ c (Proc.devRef .tc main_arg2) = m ((c : Thread nD τ).loc main_arg2) :=
  K5_of_arg m ρ c main_arg2 (by decide) (by decide) (by decide) (K2_in m ρ c 1 rfl) (by decide)
theorem K5_main_arg3 (c : Dev nD) : K5 m ρ c (Proc.devRef .tc main_arg3) = m ((c : Thread nD τ).loc main_arg3) :=
  K5_of_arg m ρ c main_arg3 (by decide) (by decide) (by decide) (K2_of_ne m ρ c main_arg3 (by decide)) (by decide)
theorem K5_main_arg4 (c : Dev nD) : K5 m ρ c (Proc.devRef .tc main_arg4) = m ((c : Thread nD τ).loc main_arg4) :=
  K5_of_arg m ρ c main_arg4 (by decide) (by decide) (by decide) (K2_in m ρ c 3 rfl) (by decide)
theorem K5_main_arg5 (c : Dev nD) : K5 m ρ c (Proc.devRef .tc main_arg5) = m ((c : Thread nD τ).loc main_arg5) :=
  K5_of_arg m ρ c main_arg5 (by decide) (by decide) (by decide) (K2_of_ne m ρ c main_arg5 (by decide)) (by decide)

/-- The frame: every weakly fair execution terminates without a fault and leaves the six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (K5_main_arg0 m ρ c),
     (h c _ (mem_uc main_arg1 (by decide))).trans (K5_main_arg1 m ρ c),
     (h c _ (mem_uc main_arg2 (by decide))).trans (K5_main_arg2 m ρ c),
     (h c _ (mem_uc main_arg3 (by decide))).trans (K5_main_arg3 m ρ c),
     (h c _ (mem_uc main_arg4 (by decide))).trans (K5_main_arg4 m ρ c),
     (h c _ (mem_uc main_arg5 (by decide))).trans (K5_main_arg5 m ρ c)⟩) (run_all m ρ)

/-- The same run with the result buffer read too: it ends at the last contents, the arguments as launched. -/
theorem run_value : θ_run defs (onTc (τ := τ) (main (F := F))) ⟨m, fun _ => 0, ρ⟩ (fun r => ∀ c : Dev nD,
      r.2.mem ((c.tc : Thread nD τ).loc main_v5) = K5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v5 (by decide)),
     (h c _ (mem_uc main_arg0 (by decide))).trans (K5_main_arg0 m ρ c),
     (h c _ (mem_uc main_arg1 (by decide))).trans (K5_main_arg1 m ρ c),
     (h c _ (mem_uc main_arg2 (by decide))).trans (K5_main_arg2 m ρ c),
     (h c _ (mem_uc main_arg3 (by decide))).trans (K5_main_arg3 m ρ c),
     (h c _ (mem_uc main_arg4 (by decide))).trans (K5_main_arg4 m ρ c),
     (h c _ (mem_uc main_arg5 (by decide))).trans (K5_main_arg5 m ρ c)⟩) (run_all m ρ)

end Cert.KernelIdeal.Hand

end
-- ==== Proof.MergeValue.lean ====
/-
  What the weight merge leaves in its result array, at the ideal instance: entry (o, k) of the merged weight is
  wm[o, k] + Σ_r (u[o, r] · s[r]) · v[r, k], the block the grid point (o / 1024, k / 1024) writes back read at
  (o mod 1024, k mod 1024); the sixteen blocks tile the array.
-/
import proofs.«138539_j9663676416607_1_alg».proof.Proof.MergeBody
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The merge's four operand arrays as the region finds them, at their literal types. -/
abbrev wmArr (c : Dev nD) : Vec Ideal S4096x4096 .f32 := V c main_arg1
abbrev uArr (c : Dev nD) : Vec Ideal S4096x64 .f32 := V c main_arg2
abbrev sArr (c : Dev nD) : Vec Ideal S1x64 .f32 := V c main_v0
abbrev vArr (c : Dev nD) : Vec Ideal S64x4096 .f32 := V c main_arg4
/-- The merge's result array after the region. -/
abbrev mergedArr (c : Dev nD) : Vec Ideal S4096x4096 .bf16 := (dat0 V c).arrAt 4 cfg0.N

/-! ## The body's stored value at an index -/

/-- The product's left operand at output index `i` reads row `i 0` … -/
theorem lhs_merge_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
/-- … at the contraction position on its second axis; -/
theorem lhs_merge_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
/-- the right operand reads the contraction position on its first axis … -/
theorem rhs_merge_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
/-- … at column `i 1`. -/
theorem rhs_merge_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The stored block at (a, b), over the four loaded blocks: the main weight's entry plus the rank-64 correction,
    each row of U scaled by S before it meets V. At the ideal values the format changes are the identity. -/
theorem merge_pay_apply (u : Vec Ideal S1024x64 .f32) (s : Vec Ideal S1x64 .f32) (v : Vec Ideal S64x1024 .f32)
    (wm : Vec Ideal S1024x1024 .f32) (a b : Fin 1024) :
    k0_pay1 u s v wm (ix2 a b) = wm (ix2 a b) + ∑ r : Fin 64, (u (ix2 a r) * s (ix2 0 r)) * v (ix2 r b) := by
  unfold k0_pay1
  show wm (ix2 a b) + FloatOps.matmul dot_S1024x64_S64x1024_S1024x1024_1_0_0_1_n_n none _ _ (constant (F := Ideal) S1024x1024 .f32 0x00000000#32) (ix2 a b) = _
  congr 1
  rw [Ideal.matmul_constant_zero_apply, ← Equiv.sum_comp (contrEquiv1 dot_S1024x64_S64x1024_S1024x1024_1_0_0_1_n_n 64 rfl rfl).symm]
  refine Finset.sum_congr rfl fun r _ => ?_
  have hk := contrEquiv1_symm_val dot_S1024x64_S64x1024_S1024x1024_1_0_0_1_n_n 64 rfl rfl r
  have el : dot_S1024x64_S64x1024_S1024x1024_1_0_0_1_n_n.lhsIdx (ix2 a b) ((contrEquiv1 dot_S1024x64_S64x1024_S1024x1024_1_0_0_1_n_n 64 rfl rfl).symm r) = ix2 a r := funext fun x => Fin.ext (by
    match x with
    | ⟨0, _⟩ => exact lhs_merge_0 _ _
    | ⟨1, _⟩ => exact (lhs_merge_1 _ _).trans hk)
  have er : dot_S1024x64_S64x1024_S1024x1024_1_0_0_1_n_n.rhsIdx (ix2 a b) ((contrEquiv1 dot_S1024x64_S64x1024_S1024x1024_1_0_0_1_n_n 64 rfl rfl).symm r) = ix2 r b := funext fun x => Fin.ext (by
    match x with
    | ⟨0, _⟩ => exact (rhs_merge_0 _ _).trans hk
    | ⟨1, _⟩ => exact rhs_merge_1 _ _)
  rw [el, er]
  show (u (ix2 a r) * broadcastTo S1024x64 (shapeCast S1x64 s shapeCasts_S1x64_S1x64) broadcasts_S1x64_S1024x64 (ix2 a r)) * v (ix2 r b) = _
  rw [shapeCast_self, broadcastTo_apply s broadcasts_S1x64_S1024x64 (ix2 a r) (ix2 0 r) (fun x => match x with
    | ⟨0, _⟩ => by show 0 = if (1 : Nat) = 1 then 0 else (a : Nat); rw [if_pos rfl]
    | ⟨1, _⟩ => by show (r : Nat) = if (64 : Nat) = 1 then 0 else (r : Nat); rw [if_neg (by decide)])]

/-! ## The merged weight as one function of the operand arrays -/

/-- Entry `i` of the merged weight: the main weight's entry plus the rank-64 correction. -/
def mergedG (c : Dev nD) : Vec Ideal S4096x4096 .bf16 := fun i =>
  wmArr V c i + ∑ r : Fin 64, (uArr V c (ix2 (i 0) r) * sArr V c (ix2 0 r)) * vArr V c (ix2 r (i 1))

/-- The printed index maps over the grid: the main weight's block moves with the result's, the block of U with its
    row index, the block of V with its column index, S does not move; the result's block indices are below 4. -/
theorem merge_idx : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 3 :=
  (by decide +kernel : ∀ t : Fin grid0.N, _)

/-- Every one of the sixteen result blocks is some point's. -/
theorem merge_idx_onto : ∀ (q0 : Fin 4) (q1 : Fin 4), ∃ t : Fin cfg0.N, win0_4.index t = ![q0.val, q1.val] :=
  (by decide +kernel : ∀ (q0 : Fin 4) (q1 : Fin 4), ∃ t : Fin grid0.N, win0_4.index t = ![q0.val, q1.val])

/-- What point `t` writes back is block `t` of the merged weight. -/
theorem flushed_merge (c : Dev nD) (t : Fin cfg0.N) :
    (dat0 V c).flushed 4 t = ((cfg0.win 4).blk t).view.read (Elt Ideal) (mergedG V c) := by
  show (cfg0.win 4).cut (grid0.coords t) ((dat0 V c).after 4 t) = _
  rw [after0_4]
  obtain ⟨e00, e01, e10, e11, e20, e21, e30, e31, l0, l1⟩ := merge_idx t
  funext j
  obtain ⟨a, b, rfl⟩ : ∃ (a : Fin 1024) (b : Fin 1024), j = ix2 a b := ⟨j 0, j 1, eq_ix2 j⟩
  show k0_pay1 (iblk0 V c 1 t) (iblk0 V c 2 t) (iblk0 V c 3 t) (iblk0 V c 0 t) (ix2 a b)
    = mergedG V c (((cfg0.win 4).blk t).view.emb (ix2 a b))
  rw [merge_pay_apply]
  unfold mergedG
  have h0 : iblk0 V c 0 t (ix2 a b) = wmArr V c (((cfg0.win 4).blk t).view.emb (ix2 a b)) := by
    show V c main_arg1 (((cfg0.win 0).blk t).view.emb (ix2 a b)) = V c main_arg1 (((cfg0.win 4).blk t).view.emb (ix2 a b))
    refine congrArg (V c main_arg1) (funext fun x => Fin.ext ?_)
    match x with
    | ⟨0, _⟩ => show win0_0.index t (0 : Fin 2) * 1024 + 1 * (a : ℕ) = win0_4.index t (0 : Fin 2) * 1024 + 1 * (a : ℕ); omega
    | ⟨1, _⟩ => show win0_0.index t (1 : Fin 2) * 1024 + 1 * (b : ℕ) = win0_4.index t (1 : Fin 2) * 1024 + 1 * (b : ℕ); omega
  have h1 : ∀ r : Fin 64, iblk0 V c 1 t (ix2 a r) = uArr V c (ix2 ((((cfg0.win 4).blk t).view.emb (ix2 a b)) 0) r) := fun r => by
    show V c main_arg2 (((cfg0.win 1).blk t).view.emb (ix2 a r)) = V c main_arg2 _
    refine congrArg (V c main_arg2) (funext fun x => Fin.ext ?_)
    match x with
    | ⟨0, _⟩ => show win0_1.index t (0 : Fin 2) * 1024 + 1 * (a : ℕ) = win0_4.index t (0 : Fin 2) * 1024 + 1 * (a : ℕ); omega
    | ⟨1, _⟩ => show win0_1.index t (1 : Fin 2) * 64 + 1 * (r : ℕ) = (r : ℕ); omega
  have h2 : ∀ r : Fin 64, iblk0 V c 2 t (ix2 0 r) = sArr V c (ix2 0 r) := fun r => by
    show V c main_v0 (((cfg0.win 2).blk t).view.emb (ix2 0 r)) = V c main_v0 _
    refine congrArg (V c main_v0) (funext fun x => Fin.ext ?_)
    match x with
    | ⟨0, _⟩ => show win0_2.index t (0 : Fin 2) * 1 + 1 * 0 = 0; omega
    | ⟨1, _⟩ => show win0_2.index t (1 : Fin 2) * 64 + 1 * (r : ℕ) = (r : ℕ); omega
  have h3 : ∀ r : Fin 64, iblk0 V c 3 t (ix2 r b) = vArr V c (ix2 r ((((cfg0.win 4).blk t).view.emb (ix2 a b)) 1)) := fun r => by
    show V c main_arg4 (((cfg0.win 3).blk t).view.emb (ix2 r b)) = V c main_arg4 _
    refine congrArg (V c main_arg4) (funext fun x => Fin.ext ?_)
    match x with
    | ⟨0, _⟩ => show win0_3.index t (0 : Fin 2) * 64 + 1 * (r : ℕ) = (r : ℕ); omega
    | ⟨1, _⟩ => show win0_3.index t (1 : Fin 2) * 1024 + 1 * (b : ℕ) = win0_4.index t (1 : Fin 2) * 1024 + 1 * (b : ℕ); omega
  rw [h0]
  congr 1
  refine Finset.sum_congr rfl fun r _ => ?_
  rw [h1 r, h2 r, h3 r]

/-- An index of the array is in point `t`'s block iff each coordinate is in the block's range on its axis. -/
theorem mem_merge_blk (t : Fin cfg0.N) (i : S4096x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v1).slice (win0_4.rect t)).set ↔ _
  rw [View.set_slice_whole, Rect.mem_set_unit]
  exact Iff.rfl

/-- The sixteen blocks cover the array: (o, k) lies in the block with block indices (o / 1024, k / 1024). -/
theorem merge_cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := merge_idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_merge_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The result array after the region is the merged weight. -/
theorem merged_eq (c : Dev nD) : mergedArr V c = mergedG V c :=
  (dat0 V c).arrAt_eq_of_cover 4 (mergedG V c) (fun t _ => flushed_merge V c t) merge_cover

/-- Entry (o, k) of the merged weight. -/
theorem merged_apply (c : Dev nD) (o k : Fin 4096) :
    mergedArr V c (ix2 o k)
      = wmArr V c (ix2 o k) + ∑ r : Fin 64, (uArr V c (ix2 o r) * sArr V c (ix2 0 r)) * vArr V c (ix2 r k) := by
  rw [merged_eq]
  rfl

end Cert.KernelIdeal.Hand

end
-- ==== Proof.AccPayload.lean ====
/-
  The product kernel's three stored values read at an index, at the ideal instance, over variables of the block
  types: the reset value is zero everywhere; the accumulate step adds to the accumulator at (a, b) the dot product
  of row a of the x block with row b of the weight block (both operands contract their second axis; changes of
  float format and casts to the same shape are the identity); the last step adds the bias row at column j.
-/
import proofs.«138539_j9663676416607_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen
open scoped BigOperators

/-- The product's left operand at output index `i` reads row `i 0` … -/
theorem lhs_acc_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … at the contraction position on its second axis; -/
theorem lhs_acc_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- the right operand reads row `i 1` … -/
theorem rhs_acc_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … at the contraction position on its second axis. -/
theorem rhs_acc_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The reset value is zero at every index. -/
theorem reset_pay_apply (i : S1024x1024.Idx) : k1_pay1 (F := Ideal) i = 0 := by
  unfold k1_pay1
  rw [shapeCast_self]
  exact Ideal.ofBits_zero_f32

/-- The accumulate step at (a, b): the accumulator's entry plus the dot product of row a of x with row b of w. -/
theorem acc_pay_apply (x : Vec Ideal S1024x1024 .f32) (w : Vec Ideal S1024x1024 .bf16) (acc : Vec Ideal S1024x1024 .f32)
    (a b : Fin 1024) :
    k1_pay2 x w acc (ix2 a b) = acc (ix2 a b) + ∑ kk : Fin 1024, x (ix2 a kk) * w (ix2 b kk) := by
  unfold k1_pay2
  simp only [shapeCast_self]
  show acc (ix2 a b) + FloatOps.matmul dot_S1024x1024_S1024x1024_S1024x1024_1_1_0_0_n_n none _ _ (constant (F := Ideal) S1024x1024 .f32 0x00000000#32) (ix2 a b) = _
  congr 1
  rw [Ideal.matmul_constant_zero_apply, ← Equiv.sum_comp (contrEquiv1 dot_S1024x1024_S1024x1024_S1024x1024_1_1_0_0_n_n 1024 rfl rfl).symm]
  refine Finset.sum_congr rfl fun r _ => ?_
  have hk := contrEquiv1_symm_val dot_S1024x1024_S1024x1024_S1024x1024_1_1_0_0_n_n 1024 rfl rfl r
  have el : dot_S1024x1024_S1024x1024_S1024x1024_1_1_0_0_n_n.lhsIdx (ix2 a b) ((contrEquiv1 dot_S1024x1024_S1024x1024_S1024x1024_1_1_0_0_n_n 1024 rfl rfl).symm r) = ix2 a r := funext fun y => Fin.ext (by
    match y with
    | ⟨0, _⟩ => exact lhs_acc_0 _ _
    | ⟨1, _⟩ => exact (lhs_acc_1 _ _).trans hk)
  have er : dot_S1024x1024_S1024x1024_S1024x1024_1_1_0_0_n_n.rhsIdx (ix2 a b) ((contrEquiv1 dot_S1024x1024_S1024x1024_S1024x1024_1_1_0_0_n_n 1024 rfl rfl).symm r) = ix2 b r := funext fun y => Fin.ext (by
    match y with
    | ⟨0, _⟩ => exact rhs_acc_0 _ _
    | ⟨1, _⟩ => exact (rhs_acc_1 _ _).trans hk)
  rw [el, er]
  rfl

/-- The last step at (a, j): the accumulator's entry plus the bias at column j. -/
theorem out_pay_apply (acc : Vec Ideal S1024x1024 .f32) (bias : Vec Ideal S1x1024 .f32) (a j : Fin 1024) :
    k1_pay3 acc bias (ix2 a j) = acc (ix2 a j) + bias (ix2 0 j) := by
  unfold k1_pay3
  show acc (ix2 a j) + broadcastTo S1024x1024 (shapeCast S1x1024 bias shapeCasts_S1x1024_S1x1024) broadcasts_S1x1024_S1024x1024 (ix2 a j) = _
  rw [shapeCast_self, broadcastTo_apply bias broadcasts_S1x1024_S1024x1024 (ix2 a j) (ix2 0 j) (fun y => match y with
    | ⟨0, _⟩ => by show 0 = if (1 : Nat) = 1 then 0 else (a : Nat); rw [if_pos rfl]
    | ⟨1, _⟩ => by show (j : Nat) = if (1024 : Nat) = 1 then 0 else (j : Nat); rw [if_neg (by decide)])]

end Cert.KernelIdeal.Hand

end
-- ==== Proof.AccRun.lean ====
/-
  The scratch accumulator along a run of four grid points, at the ideal instance. The point with last coordinate 0
  resets it, so after that point it holds zero plus that point's block product; each later point adds its own. After
  the point with last coordinate 3 the entry (a, b) is the four block products of the run added in order onto zero.
-/
import proofs.«138539_j9663676416607_1_alg».proof.Proof.AccBody
import proofs.«138539_j9663676416607_1_alg».proof.Proof.AccPayload

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open scoped BigOperators

variable (V : (c : Dev nD) → (b : Ref sig .tc) → Buf (Elt Ideal) ((c : Thread nD τ).loc b))

/-- Row `a` of the x block at point `t` against row `b` of the weight block there. -/
def blockDot (c : Dev nD) (t : Fin cfg1.N) (a b : Fin 1024) : EReal :=
  ∑ kk : Fin 1024, xblk V c t (ix2 a kk) * wblk V c t (ix2 b kk)

/-- The point before `t` (the first point's is itself). -/
abbrev prevPt (t : Fin cfg1.N) : Fin cfg1.N := ⟨t.val - 1, Nat.lt_of_le_of_lt (Nat.sub_le _ _) t.isLt⟩

/-- After a resetting point the accumulator is zero plus the point's block product. -/
theorem accAt_first (c : Dev nD) (t : Fin cfg1.N) (h : t.val % 4 = 0) (a b : Fin 1024) :
    accAt V c t.val t.isLt (ix2 a b) = 0 + blockDot V c t a b := by
  rw [accAt_reset V c t h]
  refine (acc_pay_apply (xblk V c t) (wblk V c t) (k1_pay1 (F := Ideal)) a b).trans ?_
  rw [reset_pay_apply]
  rfl

/-- After any other point it is what the point before left plus the point's block product. -/
theorem accAt_next (c : Dev nD) (t : Fin cfg1.N) (h : t.val % 4 ≠ 0) (a b : Fin 1024) :
    accAt V c t.val t.isLt (ix2 a b)
      = accAt V c (prevPt t).val (prevPt t).isLt (ix2 a b) + blockDot V c t a b := by
  rw [accAt_step V c t h]
  exact acc_pay_apply (xblk V c t) (wblk V c t) _ a b

/-- After the last point of a run: the four block products added in order onto zero. -/
theorem accAt_last (c : Dev nD) (t : Fin cfg1.N) (h : t.val % 4 = 3) (a b : Fin 1024) :
    accAt V c t.val t.isLt (ix2 a b)
      = (((0 + blockDot V c (prevPt (prevPt (prevPt t))) a b) + blockDot V c (prevPt (prevPt t)) a b)
          + blockDot V c (prevPt t) a b) + blockDot V c t a b := by
  have h1 : (prevPt t).val % 4 ≠ 0 := by show (t.val - 1) % 4 ≠ 0; omega
  have h2 : (prevPt (prevPt t)).val % 4 ≠ 0 := by show (t.val - 1 - 1) % 4 ≠ 0; omega
  have h3 : (prevPt (prevPt (prevPt t))).val % 4 = 0 := by show (t.val - 1 - 1 - 1) % 4 = 0; omega
  rw [accAt_next V c t (by omega) a b, accAt_next V c (prevPt t) h1 a b, accAt_next V c (prevPt (prevPt t)) h2 a b,
    accAt_first V c (prevPt (prevPt (prevPt t))) h3 a b]

end Cert.KernelIdeal.Hand

end
-- ==== Proof.AccValue.lean ====
/-
  What the blocked matrix product leaves in its result array, at the ideal instance: entry (p, o) is the four
  partial products over the column blocks of x and of the weight, added in order onto zero, plus the bias at o.
  The accumulator after the point (i, j, k) holds the first k + 1 partial products of block (i, j); the points with
  k = 3 write it back with the bias, and their thirty-two blocks tile the array.
-/
import proofs.«138539_j9663676416607_1_alg».proof.Proof.AccRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The product's operand arrays as the region finds them, at their literal types. -/
abbrev xArr (c : Dev nD) : Vec Ideal S8192x4096 .f32 := V c main_v2
abbrev wArr (c : Dev nD) : Vec Ideal S4096x4096 .bf16 := V c main_v1
abbrev bArr (c : Dev nD) : Vec Ideal S1x4096 .f32 := V c main_v3
/-- The product's result array after the region. -/
abbrev prodArr (c : Dev nD) : Vec Ideal S8192x4096 .f32 := (dat1 V c).arrAt 3 cfg1.N

/-- Column `kk` of column block `kb`. -/
abbrev col (kb : Fin 4) (kk : Fin 1024) : Fin 4096 := ⟨kb.val * 1024 + kk.val, by omega⟩

/-- The partial product of row `p` of x and row `o` of the weight over column block `kb`. -/
def partialDot (c : Dev nD) (p : Fin 8192) (o : Fin 4096) (kb : Fin 4) : EReal :=
  ∑ kk : Fin 1024, xArr V c (ix2 p (col kb kk)) * wArr V c (ix2 o (col kb kk))

/-! ## The blocks a grid point reads, as entries of the operand arrays -/

/-- The block indices of the four windows at grid point t = 16 i + 4 j + k: x's block (i, k), the weight's (j, k),
    the bias's (0, j), the result's (i, j). -/
theorem idx_facts1 : ∀ t : Fin cfg1.N,
      win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- The x block of point t at (a, kk) is x at row 1024 (t / 16) + a, column 1024 (t % 4) + kk. -/
theorem xblk_apply (c : Dev nD) (t : Fin cfg1.N) (a kk : Fin 1024) (r : Fin 8192) (q : Fin 4096)
    (hr : r.val = 1024 * (t.val / 16) + a.val) (hq : q.val = 1024 * (t.val % 4) + kk.val) :
    xblk V c t (ix2 a kk) = xArr V c (ix2 r q) := by
  obtain ⟨e0, e1, -⟩ := idx_facts1 t
  unfold xblk iblk1
  rw [View.read_apply]
  show V c main_v2 _ = V c main_v2 _
  congr 1
  funext ax
  apply Fin.ext
  match ax with
  | ⟨0, _⟩ => show win1_0.index t (0 : Fin 2) * 1024 + 1 * a.val = r.val; rw [e0, hr]; omega
  | ⟨1, _⟩ => show win1_0.index t (1 : Fin 2) * 1024 + 1 * kk.val = q.val; rw [e1, hq]; omega

/-- The weight block of point t at (b, kk) is the weight at row 1024 (t / 4 % 4) + b, column 1024 (t % 4) + kk. -/
theorem wblk_apply (c : Dev nD) (t : Fin cfg1.N) (b kk : Fin 1024) (o q : Fin 4096)
    (ho : o.val = 1024 * (t.val / 4 % 4) + b.val) (hq : q.val = 1024 * (t.val % 4) + kk.val) :
    wblk V c t (ix2 b kk) = wArr V c (ix2 o q) := by
  obtain ⟨-, -, e0, e1, -⟩ := idx_facts1 t
  unfold wblk iblk1
  rw [View.read_apply]
  show V c main_v1 _ = V c main_v1 _
  congr 1
  funext ax
  apply Fin.ext
  match ax with
  | ⟨0, _⟩ => show win1_1.index t (0 : Fin 2) * 1024 + 1 * b.val = o.val; rw [e0, ho]; omega
  | ⟨1, _⟩ => show win1_1.index t (1 : Fin 2) * 1024 + 1 * kk.val = q.val; rw [e1, hq]; omega

/-- The bias block of point t at (0, b) is the bias at column 1024 (t / 4 % 4) + b. -/
theorem bblk_apply (c : Dev nD) (t : Fin cfg1.N) (b : Fin 1024) (o : Fin 4096)
    (ho : o.val = 1024 * (t.val / 4 % 4) + b.val) :
    bblk V c t (ix2 (0 : Fin 1) b) = bArr V c (ix2 (0 : Fin 1) o) := by
  obtain ⟨-, -, -, -, e0, e1, -⟩ := idx_facts1 t
  unfold bblk iblk1
  rw [View.read_apply]
  show V c main_v3 _ = V c main_v3 _
  congr 1
  funext ax
  apply Fin.ext
  match ax with
  | ⟨0, _⟩ => show win1_2.index t (0 : Fin 2) * 1 + 1 * 0 = 0; rw [e0]
  | ⟨1, _⟩ => show win1_2.index t (1 : Fin 2) * 1024 + 1 * b.val = o.val; rw [e1, ho]; omega

/-! ## The accumulator after the last point of a run -/

/-- The block product of point t at (a, b) is the partial product over column block t % 4 of the rows the point's
    blocks hold. -/
theorem blockDot_eq (c : Dev nD) (t : Fin cfg1.N) (a b : Fin 1024) (p : Fin 8192) (o : Fin 4096) (kb : Fin 4)
    (hp : p.val = 1024 * (t.val / 16) + a.val) (ho : o.val = 1024 * (t.val / 4 % 4) + b.val) (hk : t.val % 4 = kb.val) :
    blockDot V c t a b = partialDot V c p o kb := by
  unfold blockDot partialDot
  refine Finset.sum_congr rfl fun kk _ => ?_
  have hq : (col kb kk).val = 1024 * (t.val % 4) + kk.val := by show kb.val * 1024 + kk.val = _; omega
  rw [xblk_apply V c t a kk p (col kb kk) hp hq, wblk_apply V c t b kk o (col kb kk) ho hq]

/-- After a point whose last grid coordinate is 3 the accumulator holds, at (a, b), the four partial products of the
    rows the run's blocks hold, added in order onto zero: the three points before it read the same rows, over
    column blocks 0, 1, 2. -/
theorem acc_rows (c : Dev nD) (t : Fin cfg1.N) (h3 : t.val % 4 = 3) (a b : Fin 1024) (p : Fin 8192) (o : Fin 4096)
    (hp : p.val = 1024 * (t.val / 16) + a.val) (ho : o.val = 1024 * (t.val / 4 % 4) + b.val) :
    accAt V c t.val t.isLt (ix2 a b)
      = (((0 + partialDot V c p o 0) + partialDot V c p o 1) + partialDot V c p o 2) + partialDot V c p o 3 := by
  rw [accAt_last V c t h3 a b,
    blockDot_eq V c t a b p o 3 hp ho (by rw [h3]; rfl),
    blockDot_eq V c (prevPt t) a b p o 2 (by show _ = 1024 * ((t.val - 1) / 16) + _; omega)
      (by show _ = 1024 * ((t.val - 1) / 4 % 4) + _; omega) (by show (t.val - 1) % 4 = 2; omega),
    blockDot_eq V c (prevPt (prevPt t)) a b p o 1 (by show _ = 1024 * ((t.val - 1 - 1) / 16) + _; omega)
      (by show _ = 1024 * ((t.val - 1 - 1) / 4 % 4) + _; omega) (by show (t.val - 1 - 1) % 4 = 1; omega),
    blockDot_eq V c (prevPt (prevPt (prevPt t))) a b p o 0 (by show _ = 1024 * ((t.val - 1 - 1 - 1) / 16) + _; omega)
      (by show _ = 1024 * ((t.val - 1 - 1 - 1) / 4 % 4) + _; omega) (by show (t.val - 1 - 1 - 1) % 4 = 0; omega)]

/-! ## From the written blocks to the array -/

/-- Entry `i` of the result as one function of the operand arrays: the four partial products of row `i 0` of x and
    row `i 1` of the weight added in order onto zero, plus the bias at `i 1`. -/
def prodG (c : Dev nD) : Vec Ideal S8192x4096 .f32 := fun i =>
  ((((0 + partialDot V c (i 0) (i 1) 0) + partialDot V c (i 0) (i 1) 1) + partialDot V c (i 0) (i 1) 2)
      + partialDot V c (i 0) (i 1) 3) + bArr V c (ix2 (0 : Fin 1) (i 1))

/-- What a point with last grid coordinate 3 writes back is its block of that function. -/
theorem flushed_prod (c : Dev nD) (t : Fin cfg1.N) (hf : (cfg1.win 3).flush t = true) :
    (dat1 V c).flushed 3 t = ((cfg1.win 3).blk t).view.read (Elt Ideal) (prodG V c) := by
  have h3 : t.val % 4 = 3 := (flush1_3 t).mp hf
  have hN : cfg1.N = 128 := N_1
  have hlt : t.val < 128 := hN ▸ t.isLt
  obtain ⟨-, -, -, -, -, -, e0, e1⟩ := idx_facts1 t
  show (cfg1.win 3).cut (grid1.coords t) ((dat1 V c).after 3 t) = _
  rw [after1_3]
  funext j
  obtain ⟨a, b, rfl⟩ : ∃ (a : Fin 1024) (b : Fin 1024), j = ix2 a b := ⟨j 0, j 1, eq_ix2 j⟩
  show k1_pay3 (accAt V c t.val t.isLt) (bblk V c t) (ix2 a b) = prodG V c (((cfg1.win 3).blk t).view.emb (ix2 a b))
  obtain ⟨p, hp⟩ : ∃ p : Fin 8192, p.val = 1024 * (t.val / 16) + a.val := ⟨⟨1024 * (t.val / 16) + a.val, by omega⟩, rfl⟩
  obtain ⟨o, ho⟩ : ∃ o : Fin 4096, o.val = 1024 * (t.val / 4 % 4) + b.val := ⟨⟨1024 * (t.val / 4 % 4) + b.val, by omega⟩, rfl⟩
  have hemb : ((cfg1.win 3).blk t).view.emb (ix2 a b) = ix2 p o := funext fun x => Fin.ext (by
    match x with
    | ⟨0, _⟩ => show win1_3.index t (0 : Fin 2) * 1024 + 1 * a.val = p.val; rw [e0, hp]; omega
    | ⟨1, _⟩ => show win1_3.index t (1 : Fin 2) * 1024 + 1 * b.val = o.val; rw [e1, ho]; omega)
  rw [hemb, out_pay_apply, acc_rows V c t h3 a b p o hp ho, bblk_apply V c t b o ho]
  rfl

/-- An index of the array is in point `t`'s block iff each coordinate is in the block's range on its axis. -/
theorem mem_prod_blk (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v4).slice (win1_3.rect t)).set ↔ _
  rw [View.set_slice_whole, Rect.mem_set_unit]
  exact Iff.rfl

/-- The thirty-two written blocks cover the array: (p, o) lies in the block of the point
    16 (p / 1024) + 4 (o / 1024) + 3. -/
theorem prod_cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  obtain ⟨t, ht⟩ : ∃ t : Fin cfg1.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, e0, e1⟩ := idx_facts1 t
  refine ⟨t, (flush1_3 t).mpr (by omega), ?_⟩
  rw [mem_prod_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The result array after the region is that function. -/
theorem prod_eq (c : Dev nD) : prodArr V c = prodG V c :=
  (dat1 V c).arrAt_eq_of_cover 3 (prodG V c) (flushed_prod V c) prod_cover

/-- Entry (p, o) of the product's result. -/
theorem prod_apply (c : Dev nD) (p : Fin 8192) (o : Fin 4096) :
    prodArr V c (ix2 p o)
      = ((((0 + partialDot V c p o 0) + partialDot V c p o 1) + partialDot V c p o 2) + partialDot V c p o 3)
        + bArr V c (ix2 0 o) := by
  rw [prod_eq]
  rfl

end Cert.KernelIdeal.Hand

end
-- ==== Proof.Spec.lean ====
/-
  The algebra that joins the two programs, over the extended reals. The kernel multiplies each row of x with a row
  of the merged weight wm + (u · s) v, summing the 4096 columns in four blocks of 1024 added in order onto zero; the
  reference adds x · wmᵀ and ((x · vᵀ) · s) · uᵀ. For finite entries the two agree: the product distributes over the
  sum and the two finite sums exchange. The blocked sum is the whole sum in any commutative monoid.
-/
import Idealize.ShloMosaic.Lib.ValueIdx

noncomputable section

namespace Cert.LowRank

open scoped BigOperators

/-- An extended real that is a real number. -/
def IsReal (x : EReal) : Prop := ∃ r : ℝ, x = (r : EReal)

/-- Column `kk` of column block `kb`, of four blocks of 1024. -/
abbrev blockCol (kb : Fin 4) (kk : Fin 1024) : Fin 4096 := ⟨kb.val * 1024 + kk.val, by omega⟩

/-- Four block sums added in order onto zero are the whole sum. -/
theorem blocked_sum (f : Fin 4096 → EReal) :
    ((((0 + ∑ kk : Fin 1024, f (blockCol 0 kk)) + ∑ kk : Fin 1024, f (blockCol 1 kk))
        + ∑ kk : Fin 1024, f (blockCol 2 kk)) + ∑ kk : Fin 1024, f (blockCol 3 kk))
      = ∑ k : Fin 4096, f k := by
  -- the whole sum, re-indexed by (block, column in block): the pair (a, b) names column b + 1024 * a
  have h : ∑ k : Fin 4096, f k = ∑ p : Fin 4 × Fin 1024, f (blockCol p.1 p.2) := by
    refine (Fintype.sum_equiv (finProdFinEquiv : Fin 4 × Fin 1024 ≃ Fin 4096) _ _ ?_).symm
    rintro ⟨a, b⟩
    congr 1
    apply Fin.ext
    simp only [finProdFinEquiv_apply_val]
    omega
  rw [h, Fintype.sum_prod_type, Fin.sum_univ_four, zero_add]

/-- The coercion of the reals into the extended reals commutes with finite sums. -/
theorem coe_finset_sum {ι : Type*} (t : Finset ι) (g : ι → ℝ) :
    ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- A row of x against a row of the merged weight is the main product plus the low-rank path, for finite entries. -/
theorem merge_law {K R : ℕ} (x wm : Fin K → EReal) (u s : Fin R → EReal) (v : Fin R → Fin K → EReal)
    (hx : ∀ k, IsReal (x k)) (hwm : ∀ k, IsReal (wm k)) (hu : ∀ r, IsReal (u r)) (hs : ∀ r, IsReal (s r))
    (hv : ∀ r k, IsReal (v r k)) :
    ∑ k, x k * (wm k + ∑ r, (u r * s r) * v r k)
      = ∑ k, x k * wm k + ∑ r, ((∑ k, x k * v r k) * s r) * u r := by
  -- name the real entries, and pull every coercion to the outside: both sides are coercions of real sums
  choose xr hxr using hx
  choose wr hwr using hwm
  choose ur hur using hu
  choose sr hsr using hs
  choose vr hvr using hv
  simp only [hxr, hwr, hur, hsr, hvr, ← EReal.coe_mul, ← EReal.coe_add, ← coe_finset_sum]
  congr 1
  -- over the reals: distribute, split the sum, exchange the two finite sums, and compare term by term
  simp only [mul_add, Finset.sum_add_distrib, Finset.mul_sum, Finset.sum_mul]
  congr 1
  rw [Finset.sum_comm]
  refine Finset.sum_congr rfl fun r _ => Finset.sum_congr rfl fun k _ => ?_
  ring

end Cert.LowRank

end
-- ==== Proof.Bridge.lean ====
/-
  From the run's last contents to the reference's formula, at the ideal instance. The host reshapes only re-index:
  S as a 1 x 64 row, x as an 8192 x 4096 matrix (row b · 1024 + s), the bias as a 1 x 4096 row, and the product's
  8192 x 4096 result back as 8 x 1024 x 4096. So the result at (b, s, o) is the blocked sum over k of
  x[b,s,k] · (wm[o,k] + Σ_r (u[o,r] · S[r]) · v[r,k]) plus bias[o]; the blocked sum is the whole sum, and for finite
  arguments the product distributes over the merged weight, which is the reference's
  (Σ_k x · wm + Σ_r ((Σ_k x · v) · S) · u) + bias.
-/
import proofs.«138539_j9663676416607_1_alg».proof.Proof.Run
import proofs.«138539_j9663676416607_1_alg».proof.Proof.MergeValue
import proofs.«138539_j9663676416607_1_alg».proof.Proof.AccValue
import proofs.«138539_j9663676416607_1_alg».proof.Proof.Spec
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.LowRank
open scoped BigOperators

variable (m : (ℓ : Loc nD τ sig) → Buf (Elt Ideal) ℓ) (ρ : Dev nD → PrngReg)

/-! ## The six arguments at their literal types -/

abbrev argX (c : Dev nD) : Vec Ideal S8x1024x4096 .f32 := m ((c : Thread nD τ).loc main_arg0)
abbrev argWm (c : Dev nD) : Vec Ideal S4096x4096 .f32 := m ((c : Thread nD τ).loc main_arg1)
abbrev argU (c : Dev nD) : Vec Ideal S4096x64 .f32 := m ((c : Thread nD τ).loc main_arg2)
abbrev argS (c : Dev nD) : Vec Ideal S64 .f32 := m ((c : Thread nD τ).loc main_arg3)
abbrev argV (c : Dev nD) : Vec Ideal S64x4096 .f32 := m ((c : Thread nD τ).loc main_arg4)
abbrev argB (c : Dev nD) : Vec Ideal S4096 .f32 := m ((c : Thread nD τ).loc main_arg5)
/-- The result buffer at the end of the run. -/
abbrev resArr (c : Dev nD) : Vec Ideal S8x1024x4096 .f32 := K5 m ρ c (Proc.devRef .tc main_v5)

/-- Row `b · 1024 + s` of x as a matrix. -/
abbrev rowOf (b : Fin 8) (s : Fin 1024) : Fin 8192 := ⟨b.val * 1024 + s.val, by omega⟩

/-! ## What the merge is entered with -/

theorem wm_entry (c : Dev nD) : wmArr (E1 m ρ) c = argWm m c :=
  StableHlo.after_of_writes_sub hostOps0 _ hostOps0_writes (by decide)
theorem u_entry (c : Dev nD) : uArr (E1 m ρ) c = argU m c :=
  StableHlo.after_of_writes_sub hostOps0 _ hostOps0_writes (by decide)
theorem v_entry (c : Dev nD) : vArr (E1 m ρ) c = argV m c :=
  StableHlo.after_of_writes_sub hostOps0 _ hostOps0_writes (by decide)
theorem s_entry (c : Dev nD) (r : Fin 64) : sArr (E1 m ρ) c (ix2 0 r) = argS m c (ix1 r) := by
  have e : (sArr (E1 m ρ) c : Vec Ideal S1x64 .f32) = shapeCast S1x64 (argS m c) shapeCasts_S64_S1x64 := by
    show StableHlo.after hostOps0 (K0 m ρ c) (Proc.devRef .tc main_v0) = _
    after_results; rfl
  rw [e]
  exact shapeCast_a_1a_apply _ _ 0 r

/-! ## What the product is entered with -/

theorem K2_arg0 (c : Dev nD) : (K2 m ρ c (Proc.devRef .tc main_arg0) : Vec Ideal S8x1024x4096 .f32) = argX m c :=
  (K2_of_ne m ρ c main_arg0 (by decide)).trans (StableHlo.after_of_writes_sub hostOps0 _ hostOps0_writes (by decide))
theorem K2_arg5 (c : Dev nD) : (K2 m ρ c (Proc.devRef .tc main_arg5) : Vec Ideal S4096 .f32) = argB m c :=
  (K2_of_ne m ρ c main_arg5 (by decide)).trans (StableHlo.after_of_writes_sub hostOps0 _ hostOps0_writes (by decide))

theorem x_entry (c : Dev nD) (b : Fin 8) (s : Fin 1024) (k : Fin 4096) :
    xArr (E3 m ρ) c (ix2 (rowOf b s) k) = argX m c (ix3 b s k) := by
  have e : (xArr (E3 m ρ) c : Vec Ideal S8192x4096 .f32)
      = shapeCast S8192x4096 (K2 m ρ c (Proc.devRef .tc main_arg0) : Vec Ideal S8x1024x4096 .f32) shapeCasts_S8x1024x4096_S8192x4096 := by
    show StableHlo.after hostOps1 (K2 m ρ c) (Proc.devRef .tc main_v2) = _
    after_results; rfl
  rw [e, K2_arg0]
  refine shapeCast_apply (s := S8x1024x4096) (t := S8192x4096) _ _ _ _ ?_
  rw [Shape.rowMajor_val_three, Shape.rowMajor_val_two]
  rfl

theorem b_entry (c : Dev nD) (o : Fin 4096) : bArr (E3 m ρ) c (ix2 0 o) = argB m c (ix1 o) := by
  have e : (bArr (E3 m ρ) c : Vec Ideal S1x4096 .f32)
      = shapeCast S1x4096 (K2 m ρ c (Proc.devRef .tc main_arg5) : Vec Ideal S4096 .f32) shapeCasts_S4096_S1x4096 := by
    show StableHlo.after hostOps1 (K2 m ρ c) (Proc.devRef .tc main_v3) = _
    after_results; rfl
  rw [e, K2_arg5]
  exact shapeCast_a_1a_apply _ _ 0 o

theorem w_entry (c : Dev nD) : wArr (E3 m ρ) c = mergedArr (E1 m ρ) c :=
  (StableHlo.after_of_writes_sub hostOps1 _ hostOps1_writes (by decide)).trans (K2_arr m ρ c 4)

/-! ## The result buffer -/

theorem res_entry (c : Dev nD) (b : Fin 8) (s : Fin 1024) (o : Fin 4096) :
    resArr m ρ c (ix3 b s o) = prodArr (E3 m ρ) c (ix2 (rowOf b s) o) := by
  have e : (resArr m ρ c : Vec Ideal S8x1024x4096 .f32)
      = shapeCast S8x1024x4096 (K4 m ρ c (Proc.devRef .tc main_v4) : Vec Ideal S8192x4096 .f32) shapeCasts_S8192x4096_S8x1024x4096 := by
    show StableHlo.after hostOps2 (K4 m ρ c) (Proc.devRef .tc main_v5) = _
    after_results; rfl
  rw [e, show (K4 m ρ c (Proc.devRef .tc main_v4) : Vec Ideal S8192x4096 .f32) = prodArr (E3 m ρ) c from K4_arr m ρ c 3]
  refine shapeCast_apply (s := S8192x4096) (t := S8x1024x4096) _ _ _ _ ?_
  rw [Shape.rowMajor_val_three, Shape.rowMajor_val_two]
  rfl

/-- Entry (o, k) of the merged weight over the arguments. -/
theorem merged_entry (c : Dev nD) (o k : Fin 4096) :
    mergedArr (E1 m ρ) c (ix2 o k)
      = argWm m c (ix2 o k) + ∑ r : Fin 64, (argU m c (ix2 o r) * argS m c (ix1 r)) * argV m c (ix2 r k) := by
  rw [merged_apply, wm_entry, u_entry, v_entry]
  congr 1
  exact Finset.sum_congr rfl fun r _ => by rw [s_entry]

/-! ## The result is the reference's formula -/

/-- Entry (b, s, o) of the kernel's result, for finite arguments. -/
theorem result_apply (c : Dev nD)
    (hX : ∀ i, IsReal (argX m c i)) (hWm : ∀ i, IsReal (argWm m c i)) (hU : ∀ i, IsReal (argU m c i))
    (hS : ∀ i, IsReal (argS m c i)) (hV : ∀ i, IsReal (argV m c i))
    (b : Fin 8) (s : Fin 1024) (o : Fin 4096) :
    resArr m ρ c (ix3 b s o)
      = (∑ k : Fin 4096, argX m c (ix3 b s k) * argWm m c (ix2 o k)
          + ∑ r : Fin 64, ((∑ k : Fin 4096, argX m c (ix3 b s k) * argV m c (ix2 r k)) * argS m c (ix1 r)) * argU m c (ix2 o r))
        + argB m c (ix1 o) := by
  rw [res_entry, prod_apply, b_entry]
  congr 1
  have hd : ∀ kb : Fin 4, partialDot (E3 m ρ) c (rowOf b s) o kb
      = ∑ kk : Fin 1024, (fun k : Fin 4096 => argX m c (ix3 b s k)
          * (argWm m c (ix2 o k) + ∑ r : Fin 64, (argU m c (ix2 o r) * argS m c (ix1 r)) * argV m c (ix2 r k))) (blockCol kb kk) := by
    intro kb
    unfold partialDot
    refine Finset.sum_congr rfl fun kk _ => ?_
    rw [show col kb kk = blockCol kb kk from rfl, x_entry, w_entry, merged_entry]
  have hb := blocked_sum (fun k : Fin 4096 => argX m c (ix3 b s k)
          * (argWm m c (ix2 o k) + ∑ r : Fin 64, (argU m c (ix2 o r) * argS m c (ix1 r)) * argV m c (ix2 r k)))
  rw [hd 0, hd 1, hd 2, hd 3]
  refine hb.trans ?_
  exact merge_law (fun k => argX m c (ix3 b s k)) (fun k => argWm m c (ix2 o k)) (fun r => argU m c (ix2 o r))
    (fun r => argS m c (ix1 r)) (fun r k => argV m c (ix2 r k))
    (fun k => hX _) (fun k => hWm _) (fun r => hU _) (fun r => hS _) (fun r k => hV _)

end Cert.KernelIdeal.Hand

end
-- ==== Proof.RefValue.lean ====
/-
  The reference's result read at an index, at the ideal instance: entry (b, s, o) is
  (Σ_k x[b,s,k] · wm[o,k] + Σ_r ((Σ_k x[b,s,k] · v[r,k]) · s[r]) · u[o,r]) + bias[o].
-/
import proofs.«138539_j9663676416607_1_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## Where each contraction and each broadcast reads its operands

  At the output index (b, s, o) the full product contracts x[b,s,·] against wm[o,·]; the up-projection contracts the
  scaled down-projection at (b, s, ·) against u[o,·]; the down-projection at (b, s, r) contracts x[b,s,·] against
  v[r,·]; the two broadcast chains keep only the last coordinate. -/

/-- The full product's left operand at (b, s, o), summand k, is read at (b, s, k). -/
theorem lidx_v0 (b : Fin 8) (s : Fin 1024) (o : Fin 4096) (k : Fin 4096) :
    Read.lidx_main_v0 (ix3 b s o) k = ix3 b s k :=
  funext fun a => Fin.ext (by match a with | ⟨0, _⟩ => rfl | ⟨1, _⟩ => rfl | ⟨2, _⟩ => rfl)

/-- The full product's right operand at (b, s, o), summand k, is read at (o, k). -/
theorem ridx_v0 (b : Fin 8) (s : Fin 1024) (o : Fin 4096) (k : Fin 4096) :
    Read.ridx_main_v0 (ix3 b s o) k = ix2 o k :=
  funext fun a => Fin.ext (by match a with | ⟨0, _⟩ => rfl | ⟨1, _⟩ => rfl)

/-- The down-projection's left operand at (b, s, r), summand k, is read at (b, s, k). -/
theorem lidx_v1 (b : Fin 8) (s : Fin 1024) (r : Fin 64) (k : Fin 4096) :
    Read.lidx_main_v1 (ix3 b s r) k = ix3 b s k :=
  funext fun a => Fin.ext (by match a with | ⟨0, _⟩ => rfl | ⟨1, _⟩ => rfl | ⟨2, _⟩ => rfl)

/-- The down-projection's right operand at (b, s, r), summand k, is read at (r, k). -/
theorem ridx_v1 (b : Fin 8) (s : Fin 1024) (r : Fin 64) (k : Fin 4096) :
    Read.ridx_main_v1 (ix3 b s r) k = ix2 r k :=
  funext fun a => Fin.ext (by match a with | ⟨0, _⟩ => rfl | ⟨1, _⟩ => rfl)

/-- The up-projection's left operand at (b, s, o), summand r, is read at (b, s, r). -/
theorem lidx_v5 (b : Fin 8) (s : Fin 1024) (o : Fin 4096) (r : Fin 64) :
    Read.lidx_main_v5 (ix3 b s o) r = ix3 b s r :=
  funext fun a => Fin.ext (by match a with | ⟨0, _⟩ => rfl | ⟨1, _⟩ => rfl | ⟨2, _⟩ => rfl)

/-- The up-projection's right operand at (b, s, o), summand r, is read at (o, r). -/
theorem ridx_v5 (b : Fin 8) (s : Fin 1024) (o : Fin 4096) (r : Fin 64) :
    Read.ridx_main_v5 (ix3 b s o) r = ix2 o r :=
  funext fun a => Fin.ext (by match a with | ⟨0, _⟩ => rfl | ⟨1, _⟩ => rfl)

/-- The scale vector, broadcast to (1, 1, 64) and then to (8, 1024, 64), is read at r. -/
theorem idx_v3_v2 (b : Fin 8) (s : Fin 1024) (r : Fin 64) :
    Read.idx_main_v2 (Read.idx_main_v3 (ix3 b s r)) = ix1 r :=
  funext fun a => Fin.ext (by match a with | ⟨0, _⟩ => rfl)

/-- The bias vector, broadcast to (1, 1, 4096) and then to (8, 1024, 4096), is read at o. -/
theorem idx_v8_v7 (b : Fin 8) (s : Fin 1024) (o : Fin 4096) :
    Read.idx_main_v7 (Read.idx_main_v8 (ix3 b s o)) = ix1 o :=
  funext fun a => Fin.ext (by match a with | ⟨0, _⟩ => rfl)

/-- The reference's last stage at the index (b, s, o). -/
theorem ref_apply (x0 : (⟨S8x1024x4096, .f32⟩ : BufTy).Contents (Elt Ideal)) (x1 : (⟨S4096x4096, .f32⟩ : BufTy).Contents (Elt Ideal))
    (x2 : (⟨S4096x64, .f32⟩ : BufTy).Contents (Elt Ideal)) (x3 : (⟨S64, .f32⟩ : BufTy).Contents (Elt Ideal))
    (x4 : (⟨S64x4096, .f32⟩ : BufTy).Contents (Elt Ideal)) (x5 : (⟨S4096, .f32⟩ : BufTy).Contents (Elt Ideal))
    (b : Fin 8) (s : Fin 1024) (o : Fin 4096) :
    Read.val_main_v9 (F := Ideal) x0 x1 x2 x3 x4 x5 (ix3 b s o)
      = (∑ k : Fin 4096, x0 (ix3 b s k) * x1 (ix2 o k)
          + ∑ r : Fin 64, ((∑ k : Fin 4096, x0 (ix3 b s k) * x4 (ix2 r k)) * x3 (ix1 r)) * x2 (ix2 o r))
        + x5 (ix1 o) := by
  rw [Read.val_main_v9_apply, Read.val_main_v6_apply, Read.val_main_v0_apply, Read.val_main_v5_apply,
    Read.val_main_v8_apply, Read.val_main_v7_apply, idx_v8_v7, Ideal.addf_def, Ideal.addf_def]
  congr 2
  · exact Finset.sum_congr rfl fun k _ => by rw [lidx_v0, ridx_v0]
  · refine Finset.sum_congr rfl fun r _ => ?_
    rw [lidx_v5, ridx_v5, Read.val_main_v4_apply, Read.val_main_v1_apply, Read.val_main_v3_apply,
      Read.val_main_v2_apply, idx_v3_v2, Ideal.mulf_def]
    congr 2
    exact Finset.sum_congr rfl fun k _ => by rw [lidx_v1, ridx_v1]

end Cert.ReferenceIdeal.RefValue

end
-- ==== Proof.Finite.lean ====
/-
  The precondition says every entry of the six argument arrays is finite: |x| < +inf entry by entry, all conjoined.
  Read at the ideal instance, every entry is a real number.
-/
import proofs.«138539_j9663676416607_1_alg».proof.Pre_finite_inputs
import proofs.«138539_j9663676416607_1_alg».proof.Proof.Spec
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Cert.LowRank

variable [Cert.Pre_finite_inputs.Facts]

/-- The scalar shape has one index. -/
instance : Subsingleton S_.Idx := ⟨fun a b => funext fun d => d.elim0⟩

/-- An extended real whose absolute value max x (-x) lies below +∞ is a real number: neither infinity passes the test. -/
theorem isReal_of_abs_lt_top (x : EReal) (h : max x (-x) < ⊤) : IsReal x := by
  induction x using EReal.rec with
  | bot => simp at h
  | coe r => exact ⟨r, rfl⟩
  | top => simp at h

/-- The word 0x7F800000 denotes +∞. -/
theorem inf_word : Ideal.ofBits .f32 0x7F800000#32 = ⊤ := by simp [Ideal.ofBits, Ideal.ieee]

/-- One entry: where the comparison |x| < +∞ against the broadcast constant answers 1, the entry is real. -/
theorem isReal_of_cmp {s : Shape} (x : FVec Ideal s .f32) (dims : Fin S_.rank → Fin s.rank)
    (hb : S_.BroadcastsInDim s dims) (i : s.Idx)
    (h : cmpf .olt (Host.absf x) (broadcastInDim s dims hb (constant S_ .f32 0x7F800000#32)) i = 1#1) :
    IsReal (x i) := by
  have h' : Ideal.cmp .olt (max (x i : EReal) (-(x i : EReal))) (Ideal.ofBits .f32 0x7F800000#32) = 1#1 := h
  rw [inf_word] at h'
  unfold Ideal.cmp at h'
  by_cases hlt : max (x i : EReal) (-(x i : EReal)) < ⊤
  · exact isReal_of_abs_lt_top _ hlt
  · simp [hlt] at h'

/-- One array: where jnp.all of the comparison is 1, every entry is real. -/
theorem all_real {s : Shape} {axes : List (Fin s.rank)} (x : FVec Ideal s .f32) (dims : Fin S_.rank → Fin s.rank)
    (hb : S_.BroadcastsInDim s dims) (hr : s.ReducesTo axes S_) (hu : 0 < S_.numel)
    (h : Host.reduce IntOp.andi (cmpf .olt (Host.absf x) (broadcastInDim s dims hb (constant S_ .f32 0x7F800000#32)))
          (constantI S_ 1 1#1) hr hu ValueIdx.ix0 = 1#1) (i : s.Idx) : IsReal (x i) :=
  isReal_of_cmp x dims hb i (Host.reduce_andi_all _ _ hr hu _ h i)

/-- If the printed predicate is all ones on six arrays, every entry of each is a real number. -/
theorem entries_real (x0 : FVec Ideal S8x1024x4096 .f32) (x1 : FVec Ideal S4096x4096 .f32) (x2 : FVec Ideal S4096x64 .f32)
    (x3 : FVec Ideal S64 .f32) (x4 : FVec Ideal S64x4096 .f32) (x5 : FVec Ideal S4096 .f32)
    (h : Cert.Pre_finite_inputs.fn (F := Ideal) x0 x1 x2 x3 x4 x5 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) := by
  have h0 := congrFun h ValueIdx.ix0
  dsimp only [Cert.Pre_finite_inputs.fn, Cert.Pre_finite_inputs.fn_part1, andi] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨all_real x0 _ _ _ _ h0', all_real x1 _ _ _ _ h1, all_real x2 _ _ _ _ h2, all_real x3 _ _ _ _ h3,
    all_real x4 _ _ _ _ h4, all_real x5 _ _ _ _ h5⟩

end Cert.Pre_finite_inputs.Finite

end
-- ==== Proof.lean ====
/-
  The kernel folds the rank-64 residual into the weight once, wt = wm + (u · diag S) · v, block by block on a 4 x 4 grid,
  and then multiplies x (as an 8192 x 4096 matrix) with wtᵀ on an 8 x 4 x 4 grid, accumulating the four column blocks
  in a scratch buffer from zero and adding the bias with the last one. The reference computes
  x · wmᵀ + ((x · vᵀ) · S) · uᵀ + bias. Over the extended reals, with every argument entry finite, the two agree
  entry by entry: the blocked sum is the whole sum, the product distributes over the merged weight, and the two
  finite sums exchange. Changes of float format are the identity at the ideal instance, and the ideal pass rewrote
  nothing, so the idealized kernel is the printed one.

  The three frames: both kernel programs run as five items (a reshape, the merge region, two reshapes, the product
  region, a reshape), no item writing an argument; the reference is ten host operations.
-/
import proofs.«138539_j9663676416607_1_alg».proof.Defs
import proofs.«138539_j9663676416607_1_alg».proof.Proof.Gen.Kernel
import proofs.«138539_j9663676416607_1_alg».proof.Proof.Gen.KernelIdeal
import proofs.«138539_j9663676416607_1_alg».proof.Proof.Gen.ReferenceIdeal
import proofs.«138539_j9663676416607_1_alg».proof.Proof.Gen.Pre_finite_inputs
import proofs.«138539_j9663676416607_1_alg».proof.Proof.Gen.ReferenceIdeal.Run
import proofs.«138539_j9663676416607_1_alg».proof.Proof.Gen.ReferenceIdeal.Read
import proofs.«138539_j9663676416607_1_alg».proof.Proof.Bits.Run
import proofs.«138539_j9663676416607_1_alg».proof.Proof.Run
import proofs.«138539_j9663676416607_1_alg».proof.Proof.Bridge
import proofs.«138539_j9663676416607_1_alg».proof.Proof.RefValue
import proofs.«138539_j9663676416607_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six finite arguments both programs end with the same result: the kernel's result
    buffer at the end of its run, which entry by entry is the reference's formula. -/
theorem algebraic : Cert.algebraic_KernelIdeal_ReferenceIdeal := by
  intro m ρ m' ρ' hpre hagree
  refine ⟨fun c => Cert.KernelIdeal.Hand.resArr m ρ c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq (F := Ideal) _ _ _ _ _ _).trans ?_
  rw [(hagree c).1, (hagree c).2.1, (hagree c).2.2.1, (hagree c).2.2.2.1, (hagree c).2.2.2.2.1, (hagree c).2.2.2.2.2]
  obtain ⟨h0, h1, h2, h3, h4, h5⟩ := Cert.Pre_finite_inputs.Finite.entries_real _ _ _ _ _ _ (hpre c)
  refine funext fun (i : Cert.KernelIdeal.S8x1024x4096.Idx) => ?_
  obtain ⟨b, s, o, rfl⟩ : ∃ (b : Fin 8) (s : Fin 1024) (o : Fin 4096), i = ix3 b s o := ⟨i 0, i 1, i 2, eq_ix3 i⟩
  rw [Cert.ReferenceIdeal.RefValue.ref_apply]
  exact (Cert.KernelIdeal.Hand.result_apply m ρ c h0 h1 h2 h3 h4 b s o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
